-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : FVec F S100000x64 .f32) (main_arg2 : IVec S2x1600000 32) (main_arg3 : FVec F S128x64 .f32) (main_arg4 : FVec F S64 .f32) (main_arg5 : FVec F S64x64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S10000x128 : Shape := ⟨2, ![10000, 128]⟩
abbrev S10000x64 : Shape := ⟨2, ![10000, 64]⟩
abbrev S10000 : Shape := ⟨1, ![10000]⟩
abbrev S10000x1 : Shape := ⟨2, ![10000, 1]⟩
abbrev S_ : Shape := ⟨0, ![]⟩
abbrev S1600000x1 : Shape := ⟨2, ![1600000, 1]⟩
abbrev S1600000x64 : Shape := ⟨2, ![1600000, 64]⟩

abbrev nBuf : Space → Nat
  | .hbm => 55
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S1x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S1x64, .f32⟩
  | .hbm, ⟨54, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S100000x64.size a
  hwx4_7 : ∀ i : grid4.Coords, EltTy.bits .f32 = 32 ∨ (Rect.block (s := S100000x64) S10000x64.size (cc4_transform_7 i) (hinb4_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v19) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v19) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v31) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v32) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v33) S10000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x64 : Shape := ⟨2, ![1600000, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .i1⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .i1⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .i1⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .i1⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .i1⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics both programs compute, stated once on the extended reals.

  Every dense stage of the network acts on one node (one row) at a time: a row of the output depends on the same
  row of the node-indexed inputs and on the whole weight matrices and bias vectors. So each stage is given as a
  function of ROWS, and the whole-array function is that row function applied at each row.

    dot x w q            = sum over k of x k * w k q                                  (a row of X · W)
    mlpRow f w b q       = y q / max (sqrt (sum over j of y j * y j)) eps,  y j = dot f w j + b j
    combRow x h e ...  q = leaky ((dot (leaky ∘ h) wg q + bg q) + (leaky (dot x wl q + bl q) + e q))
    leaky v              = v where v >= 0, else slope * v

  The constants eps and slope are the binary values of the two float literals both programs carry.
-/
import Idealize.ShloMosaic.PureOps.Ideal
import Idealize.ShloMosaic.Lib.ValueIdx

noncomputable section

namespace Cert.Spec

open Idealize.ShloMosaic Idealize.ShloMosaic.ValueIdx

/-- A matrix and a vector of extended reals over literal extents. -/
abbrev Mat (a b : Nat) : Type := FVec Ideal ⟨2, ![a, b]⟩ .f32
abbrev Vec1 (a : Nat) : Type := FVec Ideal ⟨1, ![a]⟩ .f32

/-- The lower bound of the norm and the slope of the leaky rectifier: the literals' binary values. -/
abbrev eps : EReal := Ideal.ofBits .f32 0x2B8CBCCC#32
abbrev slope : EReal := Ideal.ofBits .f32 0x3C23D70A#32

/-- The leaky rectifier: the value itself where it is at least zero, else `slope` times it. -/
def leaky (v : EReal) : EReal :=
  Scalar.select (FloatOps.cmpf (F := Ideal) (φ := .f32) .oge v (Ideal.ofBits .f32 0x00000000#32)) v (slope * v)

/-- Entry `q` of the row vector `x · w`. -/
def dot {K : Nat} (x : Fin K → EReal) (w : Fin K → Fin 64 → EReal) (q : Fin 64) : EReal :=
  ∑ k : Fin K, x k * w k q

/-- One row of the first stage: the affine map, then division by the row's Euclidean norm bounded below by `eps`. -/
def mlpRow (f : Fin 128 → EReal) (w : Fin 128 → Fin 64 → EReal) (b : Fin 64 → EReal) (q : Fin 64) : EReal :=
  Ideal.div (dot f w q + b q)
    (max (Ideal.sqrt (∑ j : Fin 64, (dot f w j + b j) * (dot f w j + b j))) eps)

/-- One row of a layer's combination of the node's own state `x`, its aggregated messages `h` and its embedding `e`. -/
def combRow (x h e : Fin 64 → EReal) (wl : Fin 64 → Fin 64 → EReal) (bl : Fin 64 → EReal)
    (wg : Fin 64 → Fin 64 → EReal) (bg : Fin 64 → EReal) (q : Fin 64) : EReal :=
  leaky ((dot (fun k => leaky (h k)) wg q + bg q) + (leaky (dot x wl q + bl q) + e q))

/-- Row `r` of a matrix, a matrix as a function of its two coordinates, a vector as a function of its coordinate. -/
def row {a b : Nat} (X : Mat a b) (r : Fin a) : Fin b → EReal := fun k => X (ix2 r k)
def mat {a b : Nat} (W : Mat a b) : Fin a → Fin b → EReal := fun k q => W (ix2 k q)
def vec {a : Nat} (B : Vec1 a) : Fin a → EReal := fun q => B (ix1 q)

/-- The first stage on the whole feature array. -/
def mlpG (X : Mat 100000 128) (W : Mat 128 64) (B : Vec1 64) : Mat 100000 64 :=
  fun i => mlpRow (row X (i 0)) (mat W) (vec B) (i 1)

/-- The message projection `X · W` on the whole state array. -/
def projG (X : Mat 100000 64) (W : Mat 64 64) : Mat 100000 64 :=
  fun i => dot (row X (i 0)) (mat W) (i 1)

/-- A layer's combination on whole arrays. -/
def combG (X H E : Mat 100000 64) (Wl : Mat 64 64) (Bl : Vec1 64) (Wg : Mat 64 64) (Bg : Vec1 64) : Mat 100000 64 :=
  fun i => combRow (row X (i 0)) (row H (i 0)) (row E (i 0)) (mat Wl) (vec Bl) (mat Wg) (vec Bg) (i 1)

theorem mlpG_apply (X : Mat 100000 128) (W : Mat 128 64) (B : Vec1 64) (r : Fin 100000) (q : Fin 64) :
    mlpG X W B (ix2 r q) = mlpRow (row X r) (mat W) (vec B) q := rfl

theorem projG_apply (X : Mat 100000 64) (W : Mat 64 64) (r : Fin 100000) (q : Fin 64) :
    projG X W (ix2 r q) = dot (row X r) (mat W) q := rfl

theorem combG_apply (X H E : Mat 100000 64) (Wl : Mat 64 64) (Bl : Vec1 64) (Wg : Mat 64 64) (Bg : Vec1 64)
    (r : Fin 100000) (q : Fin 64) :
    combG X H E Wl Bl Wg Bg (ix2 r q) = combRow (row X r) (row H r) (row E r) (mat Wl) (vec Bl) (mat Wg) (vec Bg) q := rfl

end Cert.Spec

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayMlp.lean ====
import proofs.«163899_j66013647339805_1_alg».proof.Proof.Gen.KernelIdeal.Skeleton
import proofs.«163899_j66013647339805_1_alg».proof.Proof.Spec
import proofs.«163899_j66013647339805_1_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-! ## The product's operand indices, one axis at a time

At output index `i` and contraction index `c` the left operand is read at row `i 0`, column `c`, and the right
operand at row `c`, column `i 1`. -/

theorem lhs_k0_0 (i : S10000x64.Idx) (c : dot_S10000x128_S128x64_S10000x64_1_0_0_1_n_n.contr.Idx) :
    (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_k0_1 (i : S10000x64.Idx) (c : dot_S10000x128_S128x64_S10000x64_1_0_0_1_n_n.contr.Idx) :
    (dot_S10000x128_S128x64_S10000x64_1_0_0_1_n_n.lhsIdx i c 1).val = (c ⟨0, by decide⟩).val :=
  dot_S10000x128_S128x64_S10000x64_1_0_0_1_n_n.lhsIdx_val_of_single rfl i c
theorem rhs_k0_0 (i : S10000x64.Idx) (c : dot_S10000x128_S128x64_S10000x64_1_0_0_1_n_n.contr.Idx) :
    (dot_S10000x128_S128x64_S10000x64_1_0_0_1_n_n.rhsIdx i c 0).val = (c ⟨0, by decide⟩).val :=
  dot_S10000x128_S128x64_S10000x64_1_0_0_1_n_n.rhsIdx_val_of_single rfl i c
theorem rhs_k0_1 (i : S10000x64.Idx) (c : dot_S10000x128_S128x64_S10000x64_1_0_0_1_n_n.contr.Idx) :
    (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into the zero accumulator, at row `p` and column `q`: the sum over `k` of the left operand at
    `(p, k)` times the right operand at `(k, q)`, which is the specification's `dot` of row `p`. -/
theorem matmul_k0_apply (x0 : FVec Ideal S10000x128 .f32) (x1 : FVec Ideal S128x64 .f32) (p : Fin 10000) (q : Fin 64) :
    matmul dot_S10000x128_S128x64_S10000x64_1_0_0_1_n_n none x0 x1 (constant (F := Ideal) S10000x64 .f32 0x00000000#32) (ix2 p q)
      = Cert.Spec.dot (fun k : Fin 128 => x0 (ix2 p k)) (fun (k : Fin 128) (q' : Fin 64) => x1 (ix2 k q')) q := by
  refine (Ideal.matmul_constant_zero_apply dot_S10000x128_S128x64_S10000x64_1_0_0_1_n_n none x0 x1 (ix2 p q)).trans ?_
  unfold Cert.Spec.dot
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_k0_0 _ _
    | ⟨1, _⟩ => exact (lhs_k0_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_k0_0 _ _).trans hk
    | ⟨1, _⟩ => exact rhs_k0_1 _ _)
  rw [el, er]

/-! ## The bias row over every row, and the affine map -/

/-- The bias row, cast to its own shape and broadcast over the rows, reads at `(p, q)` the bias at `(0, q)`. -/
theorem bias_k0_apply (x2 : FVec Ideal S1x64 .f32) (p : Fin 10000) (q : Fin 64) :
    broadcastTo S10000x64 (shapeCast S1x64 x2 shapeCasts_S1x64_S1x64) broadcasts_S1x64_S10000x64 (ix2 p q)
      = x2 (ix2 (0 : Fin 1) q) := by
  rw [shapeCast_self]
  exact broadcastTo_1b_ab_apply x2 broadcasts_S1x64_S10000x64 p q

/-- The affine map `y` of the first stage at `(p, j)`: the row's `dot` plus the bias. -/
theorem affine_k0_apply (x0 : FVec Ideal S10000x128 .f32) (x1 : FVec Ideal S128x64 .f32) (x2 : FVec Ideal S1x64 .f32)
    (p : Fin 10000) (j : Fin 64) :
    addf (matmul dot_S10000x128_S128x64_S10000x64_1_0_0_1_n_n none x0 x1 (constant (F := Ideal) S10000x64 .f32 0x00000000#32))
        (broadcastTo S10000x64 (shapeCast S1x64 x2 shapeCasts_S1x64_S1x64) broadcasts_S1x64_S10000x64) (ix2 p j)
      = Cert.Spec.dot (fun k : Fin 128 => x0 (ix2 p k)) (fun (k : Fin 128) (q' : Fin 64) => x1 (ix2 k q')) j
          + x2 (ix2 (0 : Fin 1) j) := by
  rw [addf_apply, matmul_k0_apply, bias_k0_apply]

/-! ## The sum along the lanes -/

/-- The sum over axis 1 of a `[10000, 64]` array, at row `p`: the sum over `j` of the array at `(p, j)`. -/
theorem lanesum_k0_apply (v : FVec Ideal S10000x64 .f32) (p : Fin 10000) :
    multiReduction .add [1] S10000 v 0x00000000#32 reduces_S10000x64_S10000 (.inl rfl) rfl (ix1 p)
      = ∑ j : Fin 64, v (ix2 p j) := by
  refine (Ideal.multiReduction_add_single v _ reduces_S10000x64_S10000 _ _ (ix1 p)).trans ?_
  refine Finset.sum_congr rfl fun j _ => ?_
  refine congrArg v (funext fun a => Fin.ext ?_)
  match a with
  | ⟨0, _⟩ => rfl
  | ⟨1, _⟩ => rfl

/-- The first stage's body at row `p`, column `q` of its block: the row function of row `p` of the feature block,
    the weight matrix and the bias row. -/
theorem k0_pay1_apply (x0 : Vec Ideal S10000x128 .f32) (x1 : Vec Ideal S128x64 .f32) (x2 : Vec Ideal S1x64 .f32)
    (p : Fin 10000) (q : Fin 64) :
    k0_pay1 (F := Ideal) x0 x1 x2 (ix2 p q)
      = Cert.Spec.mlpRow (fun k : Fin 128 => x0 (ix2 p k)) (fun (k : Fin 128) (q' : Fin 64) => x1 (ix2 k q'))
          (fun q' : Fin 64 => x2 (ix2 (0 : Fin 1) q')) q := by
  unfold k0_pay1 Cert.Spec.mlpRow
  dsimp only
  rw [divf_apply, affine_k0_apply]
  refine congrArg (Ideal.div _) ?_
  rw [Cert.LibKeepdims.broadcastTo_a1_ab_apply, maximumf_apply, broadcast_apply]
  refine congrArg (fun t => max t _) ?_
  show Ideal.sqrt _ = _
  refine congrArg Ideal.sqrt ?_
  rw [Cert.LibKeepdims.shapeCast_a_a1_apply, lanesum_k0_apply]
  refine Finset.sum_congr rfl fun j _ => ?_
  rw [mulf_apply, affine_k0_apply]

end Cert.KernelIdeal.Pay

end
-- ==== Proof.Region0.lean ====
import proofs.«163899_j66013647339805_1_alg».proof.Proof.Gen.KernelIdeal.Frame
import proofs.«163899_j66013647339805_1_alg».proof.Proof.Spec
import proofs.«163899_j66013647339805_1_alg».proof.Proof.PayMlp
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature block and the result block of point `t` are both row block `t`;
    the weight matrix and the bias row are fetched whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block of the result: if the feature block `x0` is rows `n·10000 …` of the array `A`, the weight block
    the whole matrix `W` and the bias block the row `B`, the body's value at `j` is the first stage of `A`, `W`, `B` at the
    array index `i` that `j` is in row block `n`. -/
theorem point (A : Cert.Spec.Mat 100000 128) (W : Cert.Spec.Mat 128 64) (B : Cert.Spec.Vec1 64)
    (x0 : Vec Ideal S10000x128 .f32) (x1 : Vec Ideal S128x64 .f32) (x2 : Vec Ideal S1x64 .f32)
    (n : Nat) (hn : n < 10)
    (hx0 : ∀ (p : Fin 10000) (k : Fin 128), x0 (ix2 p k) = A (ix2 (⟨n * 10000 + p.val, by omega⟩ : Fin 100000) k))
    (hx1 : ∀ (k : Fin 128) (q : Fin 64), x1 (ix2 k q) = W (ix2 k q))
    (hx2 : ∀ q : Fin 64, x2 (ix2 (0 : Fin 1) q) = B (ix1 q))
    (j : S10000x64.Idx) (i : S100000x64.Idx) (hi0 : (i 0).val = n * 10000 + (j 0).val) (hi1 : (i 1).val = (j 1).val) :
    k0_pay1 (F := Ideal) x0 x1 x2 j = Cert.Spec.mlpG A W B i := by
  obtain ⟨p, q, rfl⟩ : ∃ (p : Fin 10000) (q : Fin 64), j = ix2 p q := ⟨j 0, j 1, eq_ix2 j⟩
  have hb : n * 10000 + p.val < 100000 := by omega
  have hi : i = ix2 (⟨n * 10000 + p.val, hb⟩ : Fin 100000) q := by
    funext a; apply Fin.ext
    match a with
    | ⟨0, _⟩ => exact hi0
    | ⟨1, _⟩ => exact hi1
  rw [hi, Pay.k0_pay1_apply, Cert.Spec.mlpG_apply]
  unfold Cert.Spec.row Cert.Spec.mat Cert.Spec.vec
  simp only [hx0, hx1, hx2]

/-- What point `t` writes back is block `t` of the first stage of the arrays the region finds. -/
theorem flushed_eq (c : Dev nD) (B : Cert.Spec.Vec1 64) (hB : ∀ q : Fin 64, V c main_v4 (ix2 (0 : Fin 1) q) = B (ix1 q)) (t : Fin cfg0.N) :
    (dat0 V c).flushed 3 t = ((cfg0.win 3).blk t).view.read (Elt Ideal) (Cert.Spec.mlpG (V c main_arg0) (V c main_arg3) B) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e00, e01, e10, e11, e20, e21, e30, e31⟩ := idx_facts t
  have ht : t.val < 10 := lt_of_lt_of_eq t.isLt N_0
  funext j
  show k0_pay1 (iblk0 V c 0 t) (iblk0 V c 1 t) (iblk0 V c 2 t) j = Cert.Spec.mlpG (V c main_arg0) (V c main_arg3) B (((cfg0.win 3).blk t).view.emb j)
  refine point (V c main_arg0) (V c main_arg3) B (iblk0 V c 0 t) (iblk0 V c 1 t) (iblk0 V c 2 t) t.val ht ?_ ?_ ?_ j (((cfg0.win 3).blk t).view.emb j) ?_ ?_
  · intro p k
    show V c main_arg0 (((cfg0.win 0).blk t).view.emb (ix2 p k)) = V c main_arg0 _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg3 (((cfg0.win 1).blk t).view.emb (ix2 k q)) = V c main_arg3 _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  · intro q
    refine (show V c main_v4 (((cfg0.win 2).blk t).view.emb (ix2 (0 : Fin 1) q)) = V c main_v4 (ix2 (0 : Fin 1) q) from
      congrArg (V c main_v4) ?_).trans (hB q)
    funext a; apply Fin.ext
    match a with
    | ⟨0, _⟩ => show win0_2.index t (0 : Fin 2) * 1 + 1 * 0 = 0; omega
    | ⟨1, _⟩ => show win0_2.index t (1 : Fin 2) * 64 + 1 * q.val = q.val; omega
  · show win0_3.index t (0 : Fin 2) * 10000 + 1 * (j 0).val = t.val * 10000 + (j 0).val; omega
  · show win0_3.index t (1 : Fin 2) * 64 + 1 * (j 1).val = (j 1).val; omega

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Every index of the result array lies in the block of the point its row block names. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, lt_of_lt_of_eq (by omega : (i 0).val / 10000 < 10) N_0.symm⟩
  obtain ⟨e00, e01, e10, e11, e20, e21, e30, e31⟩ := idx_facts t
  refine ⟨t, flush0_3 t, ?_⟩
  rw [mem_blk]
  intro a
  have htv : t.val = (i 0).val / 10000 := rfl
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The result array after the region: the first stage of the feature array, the weight matrix and the bias row. -/
theorem arr (c : Dev nD) (B : Cert.Spec.Vec1 64) (hB : ∀ q : Fin 64, V c main_v4 (ix2 (0 : Fin 1) q) = B (ix1 q)) :
    (dat0 V c).arrAt 3 cfg0.N = Cert.Spec.mlpG (V c main_arg0) (V c main_arg3) B :=
  (dat0 V c).arrAt_eq_of_cover 3 _ (fun t _ => flushed_eq V c B hB t) cover

end Cert.KernelIdeal.Region0

end
-- ==== Proof.PayProj.lean ====
import proofs.«163899_j66013647339805_1_alg».proof.Proof.Gen.KernelIdeal.Skeleton
import proofs.«163899_j66013647339805_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-! ## The operand indices of the 64-column product

The product contracts the left operand's column axis against the right operand's row axis. At output index
`i = (r, c)` and contraction index `k` the left operand is read at `(r, k)` and the right at `(k, c)`: one fact per
coordinate. -/

/-- The left operand's row is the output's row. -/
theorem lhs64_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The left operand's column is the contraction index. -/
theorem lhs64_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c

/-- The right operand's row is the contraction index. -/
theorem rhs64_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c

/-- The right operand's column is the output's column. -/
theorem rhs64_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] × [64,64] block product into the zero accumulator, read at row `p` and column `q`: the sum over the
    64 contraction positions `k` of the left operand at `(p, k)` times the right operand at `(k, q)`. -/
theorem matmul64_apply (a : FVec Ideal S10000x64 .f32) (w : FVec Ideal S64x64 .f32) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun d => Fin.ext (by
    match d with
    | ⟨0, _⟩ => exact lhs64_0 _ _
    | ⟨1, _⟩ => exact (lhs64_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun d => Fin.ext (by
    match d with
    | ⟨0, _⟩ => exact (rhs64_0 _ _).trans hk
    | ⟨1, _⟩ => exact rhs64_1 _ _)
  rw [el, er]

/-- The projection body at row `p`, column `q` of its block: row `p` of the state block times the weight matrix. -/
theorem k1_pay1_apply (x0 : Vec Ideal S10000x64 .f32) (x1 : Vec Ideal S64x64 .f32) (p : Fin 10000) (q : Fin 64) :
    k1_pay1 (F := Ideal) x0 x1 (ix2 p q)
      = Cert.Spec.dot (fun k : Fin 64 => x0 (ix2 p k)) (fun (k : Fin 64) (q' : Fin 64) => x1 (ix2 k q')) q := by
  unfold k1_pay1 Cert.Spec.dot
  rw [shapeCast_self]
  exact matmul64_apply x0 x1 p q

/-- The second projection's body is the same function. -/
theorem k3_pay1_apply (x0 : Vec Ideal S10000x64 .f32) (x1 : Vec Ideal S64x64 .f32) (p : Fin 10000) (q : Fin 64) :
    k3_pay1 (F := Ideal) x0 x1 (ix2 p q)
      = Cert.Spec.dot (fun k : Fin 64 => x0 (ix2 p k)) (fun (k : Fin 64) (q' : Fin 64) => x1 (ix2 k q')) q :=
  k1_pay1_apply x0 x1 p q

end Cert.KernelIdeal.Pay

end
-- ==== Proof.Region1.lean ====
import proofs.«163899_j66013647339805_1_alg».proof.Proof.Gen.KernelIdeal.Frame
import proofs.«163899_j66013647339805_1_alg».proof.Proof.Spec
import proofs.«163899_j66013647339805_1_alg».proof.Proof.PayProj
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the state block and the result block of point `t` are both row block `t`,
    the weight matrix is fetched whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a block of the result: if the state block `x0` is rows `n·10000 …` of the array `A` and the weight
    block is the whole matrix `W`, the body's value at `j` is the projection of `A` by `W` at the array index `i` that
    `j` is in row block `n`. -/
theorem point (A : Cert.Spec.Mat 100000 64) (W : Cert.Spec.Mat 64 64) (x0 : Vec Ideal S10000x64 .f32) (x1 : Vec Ideal S64x64 .f32)
    (n : Nat) (hn : n < 10)
    (hx0 : ∀ (p : Fin 10000) (k : Fin 64), x0 (ix2 p k) = A (ix2 (⟨n * 10000 + p.val, by omega⟩ : Fin 100000) k))
    (hx1 : ∀ (k q : Fin 64), x1 (ix2 k q) = W (ix2 k q))
    (j : S10000x64.Idx) (i : S100000x64.Idx) (hi0 : (i 0).val = n * 10000 + (j 0).val) (hi1 : (i 1).val = (j 1).val) :
    k1_pay1 (F := Ideal) x0 x1 j = Cert.Spec.projG A W i := by
  obtain ⟨p, q, rfl⟩ : ∃ (p : Fin 10000) (q : Fin 64), j = ix2 p q := ⟨j 0, j 1, eq_ix2 j⟩
  have hb : n * 10000 + p.val < 100000 := by omega
  have hi : i = ix2 (⟨n * 10000 + p.val, hb⟩ : Fin 100000) q := by
    funext a; apply Fin.ext
    match a with
    | ⟨0, _⟩ => exact hi0
    | ⟨1, _⟩ => exact hi1
  rw [hi, Pay.k1_pay1_apply, Cert.Spec.projG_apply]
  unfold Cert.Spec.dot Cert.Spec.row Cert.Spec.mat
  simp only [hx0, hx1]

/-- What point `t` writes back is block `t` of the projection of the arrays the region finds. -/
theorem flushed_eq (c : Dev nD) (t : Fin cfg1.N) :
    (dat1 V c).flushed 2 t = ((cfg1.win 2).blk t).view.read (Elt Ideal) (Cert.Spec.projG (V c main_v5) (V c main_arg5)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e00, e01, e10, e11, e20, e21⟩ := idx_facts t
  have ht : t.val < 10 := lt_of_lt_of_eq t.isLt N_1
  funext j
  show k1_pay1 (iblk1 V c 0 t) (iblk1 V c 1 t) j = Cert.Spec.projG (V c main_v5) (V c main_arg5) (((cfg1.win 2).blk t).view.emb j)
  refine point (V c main_v5) (V c main_arg5) (iblk1 V c 0 t) (iblk1 V c 1 t) t.val ht ?_ ?_ j (((cfg1.win 2).blk t).view.emb j) ?_ ?_
  · intro p k
    show V c main_v5 (((cfg1.win 0).blk t).view.emb (ix2 p k)) = V c main_v5 _
    refine congrArg (V c main_v5) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  · intro k q
    show V c main_arg5 (((cfg1.win 1).blk t).view.emb (ix2 k q)) = V c main_arg5 _
    refine congrArg (V c main_arg5) ?_
    funext a; apply Fin.ext
    match a with
    | ⟨0, _⟩ => show win1_1.index t (0 : Fin 2) * 64 + 1 * k.val = k.val; omega
    | ⟨1, _⟩ => show win1_1.index t (1 : Fin 2) * 64 + 1 * q.val = q.val; omega
  · show win1_2.index t (0 : Fin 2) * 10000 + 1 * (j 0).val = t.val * 10000 + (j 0).val; omega
  · show win1_2.index t (1 : Fin 2) * 64 + 1 * (j 1).val = (j 1).val; omega

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v6).slice (win1_2.rect t)).set ↔ _
  rw [View.set_slice_whole, Rect.mem_set_unit]
  exact Iff.rfl

/-- Every index of the result array lies in the block of the point its row block names. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, lt_of_lt_of_eq (by omega : (i 0).val / 10000 < 10) N_1.symm⟩
  obtain ⟨e00, e01, e10, e11, e20, e21⟩ := idx_facts t
  refine ⟨t, flush1_2 t, ?_⟩
  rw [mem_blk]
  intro a
  have htv : t.val = (i 0).val / 10000 := rfl
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the region: the projection of the state array by the weight matrix. -/
theorem arr (c : Dev nD) : (dat1 V c).arrAt 2 cfg1.N = Cert.Spec.projG (V c main_v5) (V c main_arg5) :=
  (dat1 V c).arrAt_eq_of_cover 2 _ (fun t _ => flushed_eq V c t) cover

end Cert.KernelIdeal.Region1

end
-- ==== Proof.PayComb.lean ====
import proofs.«163899_j66013647339805_1_alg».proof.Proof.Gen.KernelIdeal.Skeleton
import proofs.«163899_j66013647339805_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-- The leaky rectifier written on a whole block (compare with the zero splat, select between the block and the
    slope splat times it), read at an index, is the scalar rectifier of the block's entry there. -/
theorem leakyVec_apply (v : FVec Ideal S10000x64 .f32) (i : S10000x64.Idx) :
    select (cmpf .oge v (broadcast S10000x64 (Scalar.ofBits (F := Ideal) .f32 0x00000000#32))) v
        (mulf (broadcast S10000x64 (Scalar.ofBits (F := Ideal) .f32 0x3C23D70A#32)) v) i
      = Cert.Spec.leaky (v i) := rfl

/-- The four coordinates of the operand indices of the [10000,64] x [64,64] product at output index `i` and
    contraction index `c`: the left operand is read at (row of `i`, `c`), the right at (`c`, column of `i`). -/
theorem mm_lhs_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm_lhs_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
theorem mm_rhs_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
theorem mm_rhs_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a [10000,64] block and a [64,64] matrix into the zero accumulator, at row `p` and column `q`:
    entry `q` of the row vector (row `p` of the block) times the matrix. -/
theorem mm64_apply (a : FVec Ideal S10000x64 .f32) (w : FVec Ideal S64x64 .f32) (p : Fin 10000) (q : Fin 64) :
    matmul dot_S10000x64_S64x64_S10000x64_1_0_0_1_n_n none a w (constant S10000x64 .f32 0x00000000#32) (ix2 p q)
      = Cert.Spec.dot (fun k : Fin 64 => a (ix2 p k)) (fun (k : Fin 64) (q' : Fin 64) => w (ix2 k q')) q := by
  unfold Cert.Spec.dot
  refine (Ideal.matmul_constant_zero_apply _ _ _ _ _).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun ax => Fin.ext (by
    match ax with
    | ⟨0, _⟩ => exact mm_lhs_0 _ _
    | ⟨1, _⟩ => exact (mm_lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun ax => Fin.ext (by
    match ax with
    | ⟨0, _⟩ => exact (mm_rhs_0 _ _).trans hk
    | ⟨1, _⟩ => exact mm_rhs_1 _ _)
  rw [el, er]

/-- A bias row, cast to its own shape and broadcast over the block's rows, read at row `p` and column `q`: the
    bias at `q`. -/
theorem biasRow_apply (b : FVec Ideal S1x64 .f32) (p : Fin 10000) (q : Fin 64) :
    broadcastTo S10000x64 (shapeCast S1x64 b shapeCasts_S1x64_S1x64) broadcasts_S1x64_S10000x64 (ix2 p q)
      = b (ix2 (0 : Fin 1) q) := by
  rw [shapeCast_self]
  exact ValueIdx.broadcastTo_1b_ab_apply b broadcasts_S1x64_S10000x64 p q

/-- A layer's combination body at row `p`, column `q` of its block: the row function of row `p` of the state block
    `x`, the message block `h` and the embedding block `e`, the two weight matrices and the two bias rows.
    The outer rectifier is read at the index; its argument is a sum of two products plus bias rows, the rectified
    inner affine term and the embedding, each read at the index in turn; the casts of a block to its own shape drop. -/
theorem k2_pay1_apply (h x : Vec Ideal S10000x64 .f32) (wl : Vec Ideal S64x64 .f32) (bl : Vec Ideal S1x64 .f32)
    (e : Vec Ideal S10000x64 .f32) (wg : Vec Ideal S64x64 .f32) (bg : Vec Ideal S1x64 .f32) (p : Fin 10000) (q : Fin 64) :
    k2_pay1 (F := Ideal) h x wl bl e wg bg (ix2 p q)
      = Cert.Spec.combRow (fun k : Fin 64 => x (ix2 p k)) (fun k : Fin 64 => h (ix2 p k)) (fun k : Fin 64 => e (ix2 p k))
          (fun (k : Fin 64) (q' : Fin 64) => wl (ix2 k q')) (fun q' : Fin 64 => bl (ix2 (0 : Fin 1) q'))
          (fun (k : Fin 64) (q' : Fin 64) => wg (ix2 k q')) (fun q' : Fin 64 => bg (ix2 (0 : Fin 1) q')) q := by
  unfold k2_pay1
  rw [leakyVec_apply]
  unfold Cert.Spec.combRow
  rw [addf_apply, addf_apply, biasRow_apply, mm64_apply, addf_apply, leakyVec_apply, addf_apply, biasRow_apply, mm64_apply]
  simp only [shapeCast_self, leakyVec_apply]

/-- The second layer's body is the same function. -/
theorem k4_pay1_apply (h x : Vec Ideal S10000x64 .f32) (wl : Vec Ideal S64x64 .f32) (bl : Vec Ideal S1x64 .f32)
    (e : Vec Ideal S10000x64 .f32) (wg : Vec Ideal S64x64 .f32) (bg : Vec Ideal S1x64 .f32) (p : Fin 10000) (q : Fin 64) :
    k4_pay1 (F := Ideal) h x wl bl e wg bg (ix2 p q)
      = Cert.Spec.combRow (fun k : Fin 64 => x (ix2 p k)) (fun k : Fin 64 => h (ix2 p k)) (fun k : Fin 64 => e (ix2 p k))
          (fun (k : Fin 64) (q' : Fin 64) => wl (ix2 k q')) (fun q' : Fin 64 => bl (ix2 (0 : Fin 1) q'))
          (fun (k : Fin 64) (q' : Fin 64) => wg (ix2 k q')) (fun q' : Fin 64 => bg (ix2 (0 : Fin 1) q')) q := by
  unfold k4_pay1
  rw [leakyVec_apply]
  unfold Cert.Spec.combRow
  rw [addf_apply, addf_apply, biasRow_apply, mm64_apply, addf_apply, leakyVec_apply, addf_apply, biasRow_apply, mm64_apply]
  simp only [shapeCast_self, leakyVec_apply]

end Cert.KernelIdeal.Pay

end
-- ==== Proof.Region2.lean ====
import proofs.«163899_j66013647339805_1_alg».proof.Proof.Gen.KernelIdeal.Frame
import proofs.«163899_j66013647339805_1_alg».proof.Proof.Spec
import proofs.«163899_j66013647339805_1_alg».proof.Proof.PayComb
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the state, message and embedding blocks and the result block of point `t` are
    all row block `t`; the two weight matrices and the two bias rows are fetched whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- One entry of a block of the result: if the state, message and embedding blocks are rows `n·10000 …` of the arrays
    `X`, `H`, `E`, the weight blocks the whole matrices and the bias blocks the rows `Bl`, `Bg`, the body's value at `j`
    is the layer's combination at the array index `i` that `j` is in row block `n`. -/
theorem point (X H E : Cert.Spec.Mat 100000 64) (Wl : Cert.Spec.Mat 64 64) (Bl : Cert.Spec.Vec1 64) (Wg : Cert.Spec.Mat 64 64) (Bg : Cert.Spec.Vec1 64)
    (x h e : Vec Ideal S10000x64 .f32) (wl : Vec Ideal S64x64 .f32) (bl : Vec Ideal S1x64 .f32) (wg : Vec Ideal S64x64 .f32) (bg : Vec Ideal S1x64 .f32)
    (n : Nat) (hn : n < 10)
    (hx : ∀ (p : Fin 10000) (k : Fin 64), x (ix2 p k) = X (ix2 (⟨n * 10000 + p.val, by omega⟩ : Fin 100000) k))
    (hh : ∀ (p : Fin 10000) (k : Fin 64), h (ix2 p k) = H (ix2 (⟨n * 10000 + p.val, by omega⟩ : Fin 100000) k))
    (he : ∀ (p : Fin 10000) (k : Fin 64), e (ix2 p k) = E (ix2 (⟨n * 10000 + p.val, by omega⟩ : Fin 100000) k))
    (hwl : ∀ (k q : Fin 64), wl (ix2 k q) = Wl (ix2 k q))
    (hbl : ∀ q : Fin 64, bl (ix2 (0 : Fin 1) q) = Bl (ix1 q))
    (hwg : ∀ (k q : Fin 64), wg (ix2 k q) = Wg (ix2 k q))
    (hbg : ∀ q : Fin 64, bg (ix2 (0 : Fin 1) q) = Bg (ix1 q))
    (j : S10000x64.Idx) (i : S100000x64.Idx) (hi0 : (i 0).val = n * 10000 + (j 0).val) (hi1 : (i 1).val = (j 1).val) :
    k2_pay1 (F := Ideal) h x wl bl e wg bg j = Cert.Spec.combG X H E Wl Bl Wg Bg i := by
  obtain ⟨p, q, rfl⟩ : ∃ (p : Fin 10000) (q : Fin 64), j = ix2 p q := ⟨j 0, j 1, eq_ix2 j⟩
  have hb : n * 10000 + p.val < 100000 := by omega
  have hi : i = ix2 (⟨n * 10000 + p.val, hb⟩ : Fin 100000) q := by
    funext a; apply Fin.ext
    match a with
    | ⟨0, _⟩ => exact hi0
    | ⟨1, _⟩ => exact hi1
  rw [hi, Pay.k2_pay1_apply, Cert.Spec.combG_apply]
  unfold Cert.Spec.row Cert.Spec.mat Cert.Spec.vec
  simp only [hx, hh, he, hwl, hbl, hwg, hbg]

/-- What point `t` writes back is block `t` of the layer's combination of the arrays the region finds. -/
theorem flushed_eq (c : Dev nD) (Bl Bg : Cert.Spec.Vec1 64)
    (hBl : ∀ q : Fin 64, V c main_v17 (ix2 (0 : Fin 1) q) = Bl (ix1 q)) (hBg : ∀ q : Fin 64, V c main_v18 (ix2 (0 : Fin 1) q) = Bg (ix1 q))
    (t : Fin cfg2.N) :
    (dat2 V c).flushed 7 t = ((cfg2.win 7).blk t).view.read (Elt Ideal)
      (Cert.Spec.combG (V c main_v5) (V c main_v16) (V c main_arg1) (V c main_arg6) Bl (V c main_arg8) Bg) := by
  show (cfg2.win 7).cut (grid2.coords t) ((dat2 V c).after 7 t) = _
  rw [after2_7]
  unfold out2_7
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71⟩ := idx_facts t
  have ht : t.val < 10 := lt_of_lt_of_eq t.isLt N_2
  funext j
  show k2_pay1 (iblk2 V c 1 t) (iblk2 V c 0 t) (iblk2 V c 3 t) (iblk2 V c 4 t) (iblk2 V c 2 t) (iblk2 V c 5 t) (iblk2 V c 6 t) j
    = Cert.Spec.combG (V c main_v5) (V c main_v16) (V c main_arg1) (V c main_arg6) Bl (V c main_arg8) Bg (((cfg2.win 7).blk t).view.emb j)
  refine point (V c main_v5) (V c main_v16) (V c main_arg1) (V c main_arg6) Bl (V c main_arg8) Bg
    (iblk2 V c 0 t) (iblk2 V c 1 t) (iblk2 V c 2 t) (iblk2 V c 3 t) (iblk2 V c 4 t) (iblk2 V c 5 t) (iblk2 V c 6 t) t.val ht
    ?_ ?_ ?_ ?_ ?_ ?_ ?_ j (((cfg2.win 7).blk t).view.emb j) ?_ ?_
  · intro p k
    show V c main_v5 (((cfg2.win 0).blk t).view.emb (ix2 p k)) = V c main_v5 _
    refine congrArg (V c main_v5) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  · intro p k
    show V c main_v16 (((cfg2.win 1).blk t).view.emb (ix2 p k)) = V c main_v16 _
    refine congrArg (V c main_v16) ?_
    funext a; apply Fin.ext
    match a with
    | ⟨0, _⟩ => show win2_1.index t (0 : Fin 2) * 10000 + 1 * p.val = t.val * 10000 + p.val; omega
    | ⟨1, _⟩ => show win2_1.index t (1 : Fin 2) * 64 + 1 * k.val = k.val; omega
  · intro p k
    show V c main_arg1 (((cfg2.win 2).blk t).view.emb (ix2 p k)) = V c main_arg1 _
    refine congrArg (V c main_arg1) ?_
    funext a; apply Fin.ext
    match a with
    | ⟨0, _⟩ => show win2_2.index t (0 : Fin 2) * 10000 + 1 * p.val = t.val * 10000 + p.val; omega
    | ⟨1, _⟩ => show win2_2.index t (1 : Fin 2) * 64 + 1 * k.val = k.val; omega
  · intro k q
    show V c main_arg6 (((cfg2.win 3).blk t).view.emb (ix2 k q)) = V c main_arg6 _
    refine congrArg (V c main_arg6) ?_
    funext a; apply Fin.ext
    match a with
    | ⟨0, _⟩ => show win2_3.index t (0 : Fin 2) * 64 + 1 * k.val = k.val; omega
    | ⟨1, _⟩ => show win2_3.index t (1 : Fin 2) * 64 + 1 * q.val = q.val; omega
  · intro q
    refine (show V c main_v17 (((cfg2.win 4).blk t).view.emb (ix2 (0 : Fin 1) q)) = V c main_v17 (ix2 (0 : Fin 1) q) from
      congrArg (V c main_v17) ?_).trans (hBl q)
    funext a; apply Fin.ext
    match a with
    | ⟨0, _⟩ => show win2_4.index t (0 : Fin 2) * 1 + 1 * 0 = 0; omega
    | ⟨1, _⟩ => show win2_4.index t (1 : Fin 2) * 64 + 1 * q.val = q.val; omega
  · intro k q
    show V c main_arg8 (((cfg2.win 5).blk t).view.emb (ix2 k q)) = V c main_arg8 _
    refine congrArg (V c main_arg8) ?_
    funext a; apply Fin.ext
    match a with
    | ⟨0, _⟩ => show win2_5.index t (0 : Fin 2) * 64 + 1 * k.val = k.val; omega
    | ⟨1, _⟩ => show win2_5.index t (1 : Fin 2) * 64 + 1 * q.val = q.val; omega
  · intro q
    refine (show V c main_v18 (((cfg2.win 6).blk t).view.emb (ix2 (0 : Fin 1) q)) = V c main_v18 (ix2 (0 : Fin 1) q) from
      congrArg (V c main_v18) ?_).trans (hBg q)
    funext a; apply Fin.ext
    match a with
    | ⟨0, _⟩ => show win2_6.index t (0 : Fin 2) * 1 + 1 * 0 = 0; omega
    | ⟨1, _⟩ => show win2_6.index t (1 : Fin 2) * 64 + 1 * q.val = q.val; omega
  · show win2_7.index t (0 : Fin 2) * 10000 + 1 * (j 0).val = t.val * 10000 + (j 0).val; omega
  · show win2_7.index t (1 : Fin 2) * 64 + 1 * (j 1).val = (j 1).val; omega

/-- An index of the array is in point `t`'s block iff each coordinate is in the block's range on its axis. -/
theorem mem_blk (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v19).slice (win2_7.rect t)).set ↔ _
  rw [View.set_slice_whole, Rect.mem_set_unit]
  exact Iff.rfl

/-- Every index of the result array lies in the block of the point its row block names. -/
theorem cover (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  let t : Fin cfg2.N := ⟨(i 0).val / 10000, lt_of_lt_of_eq (by omega : (i 0).val / 10000 < 10) N_2.symm⟩
  obtain ⟨e00, e01, e10, e11, e20, e21, e30, e31, e40, e41, e50, e51, e60, e61, e70, e71⟩ := idx_facts t
  refine ⟨t, flush2_7 t, ?_⟩
  rw [mem_blk]
  intro a
  have htv : t.val = (i 0).val / 10000 := rfl
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 64 ≤ (i 1).val ∧ (i 1).val < win2_7.index t (1 : Fin 2) * 64 + 64; omega

/-- The result array after the region: the layer's combination of the state, message and embedding arrays. -/
theorem arr (c : Dev nD) (Bl Bg : Cert.Spec.Vec1 64)
    (hBl : ∀ q : Fin 64, V c main_v17 (ix2 (0 : Fin 1) q) = Bl (ix1 q)) (hBg : ∀ q : Fin 64, V c main_v18 (ix2 (0 : Fin 1) q) = Bg (ix1 q)) :
    (dat2 V c).arrAt 7 cfg2.N = Cert.Spec.combG (V c main_v5) (V c main_v16) (V c main_arg1) (V c main_arg6) Bl (V c main_arg8) Bg :=
  (dat2 V c).arrAt_eq_of_cover 7 _ (fun t _ => flushed_eq V c Bl Bg hBl hBg t) cover

end Cert.KernelIdeal.Region2

end
-- ==== Proof.Region3.lean ====
import proofs.«163899_j66013647339805_1_alg».proof.Proof.Gen.KernelIdeal.Frame
import proofs.«163899_j66013647339805_1_alg».proof.Proof.Spec
import proofs.«163899_j66013647339805_1_alg».proof.Proof.PayProj
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the state block and the result block of point `t` are both row block `t`,
    the weight matrix is fetched whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of a block of the result: if the state block `x0` is rows `n·10000 …` of the array `A` and the weight
    block is the whole matrix `W`, the body's value at `j` is the projection of `A` by `W` at the array index `i` that
    `j` is in row block `n`. -/
theorem point (A : Cert.Spec.Mat 100000 64) (W : Cert.Spec.Mat 64 64) (x0 : Vec Ideal S10000x64 .f32) (x1 : Vec Ideal S64x64 .f32)
    (n : Nat) (hn : n < 10)
    (hx0 : ∀ (p : Fin 10000) (k : Fin 64), x0 (ix2 p k) = A (ix2 (⟨n * 10000 + p.val, by omega⟩ : Fin 100000) k))
    (hx1 : ∀ (k q : Fin 64), x1 (ix2 k q) = W (ix2 k q))
    (j : S10000x64.Idx) (i : S100000x64.Idx) (hi0 : (i 0).val = n * 10000 + (j 0).val) (hi1 : (i 1).val = (j 1).val) :
    k3_pay1 (F := Ideal) x0 x1 j = Cert.Spec.projG A W i := by
  obtain ⟨p, q, rfl⟩ : ∃ (p : Fin 10000) (q : Fin 64), j = ix2 p q := ⟨j 0, j 1, eq_ix2 j⟩
  have hb : n * 10000 + p.val < 100000 := by omega
  have hi : i = ix2 (⟨n * 10000 + p.val, hb⟩ : Fin 100000) q := by
    funext a; apply Fin.ext
    match a with
    | ⟨0, _⟩ => exact hi0
    | ⟨1, _⟩ => exact hi1
  rw [hi, Pay.k3_pay1_apply, Cert.Spec.projG_apply]
  unfold Cert.Spec.dot Cert.Spec.row Cert.Spec.mat
  simp only [hx0, hx1]

/-- What point `t` writes back is block `t` of the projection of the arrays the region finds. -/
theorem flushed_eq (c : Dev nD) (t : Fin cfg3.N) :
    (dat3 V c).flushed 2 t = ((cfg3.win 2).blk t).view.read (Elt Ideal) (Cert.Spec.projG (V c main_v19) (V c main_arg10)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  obtain ⟨e00, e01, e10, e11, e20, e21⟩ := idx_facts t
  have ht : t.val < 10 := lt_of_lt_of_eq t.isLt N_3
  funext j
  show k3_pay1 (iblk3 V c 0 t) (iblk3 V c 1 t) j = Cert.Spec.projG (V c main_v19) (V c main_arg10) (((cfg3.win 2).blk t).view.emb j)
  refine point (V c main_v19) (V c main_arg10) (iblk3 V c 0 t) (iblk3 V c 1 t) t.val ht ?_ ?_ j (((cfg3.win 2).blk t).view.emb j) ?_ ?_
  · intro p k
    show V c main_v19 (((cfg3.win 0).blk t).view.emb (ix2 p k)) = V c main_v19 _
    refine congrArg (V c main_v19) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  · intro k q
    show V c main_arg10 (((cfg3.win 1).blk t).view.emb (ix2 k q)) = V c main_arg10 _
    refine congrArg (V c main_arg10) ?_
    funext a; apply Fin.ext
    match a with
    | ⟨0, _⟩ => show win3_1.index t (0 : Fin 2) * 64 + 1 * k.val = k.val; omega
    | ⟨1, _⟩ => show win3_1.index t (1 : Fin 2) * 64 + 1 * q.val = q.val; omega
  · show win3_2.index t (0 : Fin 2) * 10000 + 1 * (j 0).val = t.val * 10000 + (j 0).val; omega
  · show win3_2.index t (1 : Fin 2) * 64 + 1 * (j 1).val = (j 1).val; omega

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v20).slice (win3_2.rect t)).set ↔ _
  rw [View.set_slice_whole, Rect.mem_set_unit]
  exact Iff.rfl

/-- Every index of the result array lies in the block of the point its row block names. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, lt_of_lt_of_eq (by omega : (i 0).val / 10000 < 10) N_3.symm⟩
  obtain ⟨e00, e01, e10, e11, e20, e21⟩ := idx_facts t
  refine ⟨t, flush3_2 t, ?_⟩
  rw [mem_blk]
  intro a
  have htv : t.val = (i 0).val / 10000 := rfl
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the region: the projection of the state array by the weight matrix. -/
theorem arr (c : Dev nD) : (dat3 V c).arrAt 2 cfg3.N = Cert.Spec.projG (V c main_v19) (V c main_arg10) :=
  (dat3 V c).arrAt_eq_of_cover 2 _ (fun t _ => flushed_eq V c t) cover

end Cert.KernelIdeal.Region3

end
-- ==== Proof.Region4.lean ====
import proofs.«163899_j66013647339805_1_alg».proof.Proof.Gen.KernelIdeal.Frame
import proofs.«163899_j66013647339805_1_alg».proof.Proof.Spec
import proofs.«163899_j66013647339805_1_alg».proof.Proof.PayComb
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the state, message and embedding blocks and the result block of point `t` are
    all row block `t`; the two weight matrices and the two bias rows are fetched whole. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- One entry of a block of the result: if the state, message and embedding blocks are rows `n·10000 …` of the arrays
    `X`, `H`, `E`, the weight blocks the whole matrices and the bias blocks the rows `Bl`, `Bg`, the body's value at `j`
    is the layer's combination at the array index `i` that `j` is in row block `n`. -/
theorem point (X H E : Cert.Spec.Mat 100000 64) (Wl : Cert.Spec.Mat 64 64) (Bl : Cert.Spec.Vec1 64) (Wg : Cert.Spec.Mat 64 64) (Bg : Cert.Spec.Vec1 64)
    (x h e : Vec Ideal S10000x64 .f32) (wl : Vec Ideal S64x64 .f32) (bl : Vec Ideal S1x64 .f32) (wg : Vec Ideal S64x64 .f32) (bg : Vec Ideal S1x64 .f32)
    (n : Nat) (hn : n < 10)
    (hx : ∀ (p : Fin 10000) (k : Fin 64), x (ix2 p k) = X (ix2 (⟨n * 10000 + p.val, by omega⟩ : Fin 100000) k))
    (hh : ∀ (p : Fin 10000) (k : Fin 64), h (ix2 p k) = H (ix2 (⟨n * 10000 + p.val, by omega⟩ : Fin 100000) k))
    (he : ∀ (p : Fin 10000) (k : Fin 64), e (ix2 p k) = E (ix2 (⟨n * 10000 + p.val, by omega⟩ : Fin 100000) k))
    (hwl : ∀ (k q : Fin 64), wl (ix2 k q) = Wl (ix2 k q))
    (hbl : ∀ q : Fin 64, bl (ix2 (0 : Fin 1) q) = Bl (ix1 q))
    (hwg : ∀ (k q : Fin 64), wg (ix2 k q) = Wg (ix2 k q))
    (hbg : ∀ q : Fin 64, bg (ix2 (0 : Fin 1) q) = Bg (ix1 q))
    (j : S10000x64.Idx) (i : S100000x64.Idx) (hi0 : (i 0).val = n * 10000 + (j 0).val) (hi1 : (i 1).val = (j 1).val) :
    k4_pay1 (F := Ideal) h x wl bl e wg bg j = Cert.Spec.combG X H E Wl Bl Wg Bg i := by
  obtain ⟨p, q, rfl⟩ : ∃ (p : Fin 10000) (q : Fin 64), j = ix2 p q := ⟨j 0, j 1, eq_ix2 j⟩
  have hb : n * 10000 + p.val < 100000 := by omega
  have hi : i = ix2 (⟨n * 10000 + p.val, hb⟩ : Fin 100000) q := by
    funext a; apply Fin.ext
    match a with
    | ⟨0, _⟩ => exact hi0
    | ⟨1, _⟩ => exact hi1
  rw [hi, Pay.k4_pay1_apply, Cert.Spec.combG_apply]
  unfold Cert.Spec.row Cert.Spec.mat Cert.Spec.vec
  simp only [hx, hh, he, hwl, hbl, hwg, hbg]

/-- What point `t` writes back is block `t` of the layer's combination of the arrays the region finds. -/
theorem flushed_eq (c : Dev nD) (Bl Bg : Cert.Spec.Vec1 64)
    (hBl : ∀ q : Fin 64, V c main_v31 (ix2 (0 : Fin 1) q) = Bl (ix1 q)) (hBg : ∀ q : Fin 64, V c main_v32 (ix2 (0 : Fin 1) q) = Bg (ix1 q))
    (t : Fin cfg4.N) :
    (dat4 V c).flushed 7 t = ((cfg4.win 7).blk t).view.read (Elt Ideal)
      (Cert.Spec.combG (V c main_v19) (V c main_v30) (V c main_arg1) (V c main_arg11) Bl (V c main_arg13) Bg) := by
  show (cfg4.win 7).cut (grid4.coords t) ((dat4 V c).after 7 t) = _
  rw [after4_7]
  unfold out4_7
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71⟩ := idx_facts t
  have ht : t.val < 10 := lt_of_lt_of_eq t.isLt N_4
  funext j
  show k4_pay1 (iblk4 V c 1 t) (iblk4 V c 0 t) (iblk4 V c 3 t) (iblk4 V c 4 t) (iblk4 V c 2 t) (iblk4 V c 5 t) (iblk4 V c 6 t) j
    = Cert.Spec.combG (V c main_v19) (V c main_v30) (V c main_arg1) (V c main_arg11) Bl (V c main_arg13) Bg (((cfg4.win 7).blk t).view.emb j)
  refine point (V c main_v19) (V c main_v30) (V c main_arg1) (V c main_arg11) Bl (V c main_arg13) Bg
    (iblk4 V c 0 t) (iblk4 V c 1 t) (iblk4 V c 2 t) (iblk4 V c 3 t) (iblk4 V c 4 t) (iblk4 V c 5 t) (iblk4 V c 6 t) t.val ht
    ?_ ?_ ?_ ?_ ?_ ?_ ?_ j (((cfg4.win 7).blk t).view.emb j) ?_ ?_
  · intro p k
    show V c main_v19 (((cfg4.win 0).blk t).view.emb (ix2 p k)) = V c main_v19 _
    refine congrArg (V c main_v19) ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  · intro p k
    show V c main_v30 (((cfg4.win 1).blk t).view.emb (ix2 p k)) = V c main_v30 _
    refine congrArg (V c main_v30) ?_
    funext a; apply Fin.ext
    match a with
    | ⟨0, _⟩ => show win4_1.index t (0 : Fin 2) * 10000 + 1 * p.val = t.val * 10000 + p.val; omega
    | ⟨1, _⟩ => show win4_1.index t (1 : Fin 2) * 64 + 1 * k.val = k.val; omega
  · intro p k
    show V c main_arg1 (((cfg4.win 2).blk t).view.emb (ix2 p k)) = V c main_arg1 _
    refine congrArg (V c main_arg1) ?_
    funext a; apply Fin.ext
    match a with
    | ⟨0, _⟩ => show win4_2.index t (0 : Fin 2) * 10000 + 1 * p.val = t.val * 10000 + p.val; omega
    | ⟨1, _⟩ => show win4_2.index t (1 : Fin 2) * 64 + 1 * k.val = k.val; omega
  · intro k q
    show V c main_arg11 (((cfg4.win 3).blk t).view.emb (ix2 k q)) = V c main_arg11 _
    refine congrArg (V c main_arg11) ?_
    funext a; apply Fin.ext
    match a with
    | ⟨0, _⟩ => show win4_3.index t (0 : Fin 2) * 64 + 1 * k.val = k.val; omega
    | ⟨1, _⟩ => show win4_3.index t (1 : Fin 2) * 64 + 1 * q.val = q.val; omega
  · intro q
    refine (show V c main_v31 (((cfg4.win 4).blk t).view.emb (ix2 (0 : Fin 1) q)) = V c main_v31 (ix2 (0 : Fin 1) q) from
      congrArg (V c main_v31) ?_).trans (hBl q)
    funext a; apply Fin.ext
    match a with
    | ⟨0, _⟩ => show win4_4.index t (0 : Fin 2) * 1 + 1 * 0 = 0; omega
    | ⟨1, _⟩ => show win4_4.index t (1 : Fin 2) * 64 + 1 * q.val = q.val; omega
  · intro k q
    show V c main_arg13 (((cfg4.win 5).blk t).view.emb (ix2 k q)) = V c main_arg13 _
    refine congrArg (V c main_arg13) ?_
    funext a; apply Fin.ext
    match a with
    | ⟨0, _⟩ => show win4_5.index t (0 : Fin 2) * 64 + 1 * k.val = k.val; omega
    | ⟨1, _⟩ => show win4_5.index t (1 : Fin 2) * 64 + 1 * q.val = q.val; omega
  · intro q
    refine (show V c main_v32 (((cfg4.win 6).blk t).view.emb (ix2 (0 : Fin 1) q)) = V c main_v32 (ix2 (0 : Fin 1) q) from
      congrArg (V c main_v32) ?_).trans (hBg q)
    funext a; apply Fin.ext
    match a with
    | ⟨0, _⟩ => show win4_6.index t (0 : Fin 2) * 1 + 1 * 0 = 0; omega
    | ⟨1, _⟩ => show win4_6.index t (1 : Fin 2) * 64 + 1 * q.val = q.val; omega
  · show win4_7.index t (0 : Fin 2) * 10000 + 1 * (j 0).val = t.val * 10000 + (j 0).val; omega
  · show win4_7.index t (1 : Fin 2) * 64 + 1 * (j 1).val = (j 1).val; omega

/-- An index of the array is in point `t`'s block iff each coordinate is in the block's range on its axis. -/
theorem mem_blk (t : Fin cfg4.N) (i : S100000x64.Idx) :
    i ∈ ((cfg4.win 7).blk t).view.set ↔ ∀ a : Fin 2, win4_7.index t a * S10000x64.size a ≤ (i a).val ∧ (i a).val < win4_7.index t a * S10000x64.size a + S10000x64.size a := by
  show i ∈ ((View.whole main_v33).slice (win4_7.rect t)).set ↔ _
  rw [View.set_slice_whole, Rect.mem_set_unit]
  exact Iff.rfl

/-- Every index of the result array lies in the block of the point its row block names. -/
theorem cover (i : S100000x64.Idx) : ∃ t : Fin cfg4.N, (cfg4.win 7).flush t = true ∧ i ∈ ((cfg4.win 7).blk t).view.set := by
  have hi0 : (i 0).val < 100000 := (i 0).isLt
  have hi1 : (i 1).val < 64 := (i 1).isLt
  let t : Fin cfg4.N := ⟨(i 0).val / 10000, lt_of_lt_of_eq (by omega : (i 0).val / 10000 < 10) N_4.symm⟩
  obtain ⟨e00, e01, e10, e11, e20, e21, e30, e31, e40, e41, e50, e51, e60, e61, e70, e71⟩ := idx_facts t
  refine ⟨t, flush4_7 t, ?_⟩
  rw [mem_blk]
  intro a
  have htv : t.val = (i 0).val / 10000 := rfl
  match a with
  | ⟨0, _⟩ => show win4_7.index t (0 : Fin 2) * 10000 ≤ (i 0).val ∧ (i 0).val < win4_7.index t (0 : Fin 2) * 10000 + 10000; omega
  | ⟨1, _⟩ => show win4_7.index t (1 : Fin 2) * 64 ≤ (i 1).val ∧ (i 1).val < win4_7.index t (1 : Fin 2) * 64 + 64; omega

/-- The result array after the region: the layer's combination of the state, message and embedding arrays. -/
theorem arr (c : Dev nD) (Bl Bg : Cert.Spec.Vec1 64)
    (hBl : ∀ q : Fin 64, V c main_v31 (ix2 (0 : Fin 1) q) = Bl (ix1 q)) (hBg : ∀ q : Fin 64, V c main_v32 (ix2 (0 : Fin 1) q) = Bg (ix1 q)) :
    (dat4 V c).arrAt 7 cfg4.N = Cert.Spec.combG (V c main_v19) (V c main_v30) (V c main_arg1) (V c main_arg11) Bl (V c main_arg13) Bg :=
  (dat4 V c).arrAt_eq_of_cover 7 _ (fun t _ => flushed_eq V c Bl Bg hBl hBg t) cover

end Cert.KernelIdeal.Region4

end
-- ==== Proof.HostFns.lean ====
import proofs.«163899_j66013647339805_1_alg».proof.Proof.Gen.KernelIdeal

noncomputable section

namespace Cert.KernelIdeal.Host

open Idealize.ShloMosaic Cert.KernelIdeal Cert.KernelIdeal.Gen

variable {F : FTy → Type} [FloatOps F]

/-- The source node of every edge: row 0 of the edge array. -/
def src (e : IVec S2x1600000 32) : IVec S1600000 32 :=
  shapeCast _ (extractStridedSlice S1x1600000 ![0, 0] e slices_S2x1600000_S1x1600000_0_0) shapeCasts_S1x1600000_S1600000

/-- The destination node of every edge: row 1 of the edge array. -/
def dst (e : IVec S2x1600000 32) : IVec S1600000 32 :=
  shapeCast _ (extractStridedSlice S1x1600000 ![1, 0] e slices_S2x1600000_S1x1600000_1_0) shapeCasts_S1x1600000_S1600000

/-- A source index below zero counts from the end of the node axis. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The aggregation of messages: row `y[src]` of every edge gathered, then summed into its destination node, from zero.
    Both programs apply exactly this chain of host operations; it is carried as one function and never opened. -/
def seg (e : IVec S2x1600000 32) (y : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst e))
    (Host.gather gather_S100000x64_S1600000x1_S1600000x64_1_0_n_n_0_1_164 y
      (broadcastInDim S1600000x1 ![0] bcast_S1600000_S1600000x1_0 (wrap (src e))))

/-- A bias vector as the one-row matrix the kernels take. -/
def biasRow (b : FVec F S64 .f32) : FVec F S1x64 .f32 := shapeCast _ b shapeCasts_S64_S1x64

end Cert.KernelIdeal.Host

end
-- ==== Proof.Walk1.lean ====
import proofs.«163899_j66013647339805_1_alg».proof.Proof.Gen.KernelIdeal.Frame
import proofs.«163899_j66013647339805_1_alg».proof.Proof.HostFns
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! The contents of the buffers the first three regions read, at each region's entry, in terms of the launch memory
    and of what the earlier regions leave: an argument array no host operation and no region writes is still as
    launched; a bias row is its vector reshaped; the message array is the aggregation of the projected state. -/

/-- A buffer that no operation of a host stretch writes holds after the stretch what it held before it: the stretch's
    operations are listed, each one's written buffer named, and the buffer differs from every one of them. -/
local macro "host_keeps" ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- At the second region's exit the argument `main_arg1`, which neither of the first two regions takes and no host
    operation before them writes, is as launched. -/
private theorem W3_launch_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := by host_keeps hostOps0 main_arg1
    _ = m ((c : Thread nD τ).loc main_arg1) := rfl

/-- At the second region's exit the argument `main_arg6`, which neither of the first two regions takes and no host
    operation before them writes, is as launched. -/
private theorem W3_launch_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by host_keeps hostOps0 main_arg6
    _ = m ((c : Thread nD τ).loc main_arg6) := rfl

/-- At the second region's exit the argument `main_arg8`, which neither of the first two regions takes and no host
    operation before them writes, is as launched. -/
private theorem W3_launch_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by host_keeps hostOps0 main_arg8
    _ = m ((c : Thread nD τ).loc main_arg8) := rfl

/-- At the second region's exit the argument `main_arg7`, which neither of the first two regions takes and no host
    operation before them writes, is as launched. -/
private theorem W3_launch_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by host_keeps hostOps0 main_arg7
    _ = m ((c : Thread nD τ).loc main_arg7) := rfl

/-- At the second region's exit the argument `main_arg9`, which neither of the first two regions takes and no host
    operation before them writes, is as launched. -/
private theorem W3_launch_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by host_keeps hostOps0 main_arg9
    _ = m ((c : Thread nD τ).loc main_arg9) := rfl

/-- At the second region's exit `main_v1` still holds the edges' source nodes, computed before the first region:
    neither region takes it. -/
private theorem W3_v1 (c : Dev nD) :
    (W3 m ρ c (Proc.devRef .tc main_v1) : IVec S1600000 32) = Host.src (m ((c : Thread nD τ).loc main_arg2)) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)
    _ = Host.src (m ((c : Thread nD τ).loc main_arg2)) := by
          show StableHlo.after hostOps0 (W0 m ρ c) (Proc.devRef .tc main_v1) = _
          after_results
          rfl

/-- Likewise `main_v3` still holds the edges' destination nodes. -/
private theorem W3_v3 (c : Dev nD) :
    (W3 m ρ c (Proc.devRef .tc main_v3) : IVec S1600000 32) = Host.dst (m ((c : Thread nD τ).loc main_arg2)) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)
    _ = Host.dst (m ((c : Thread nD τ).loc main_arg2)) := by
          show StableHlo.after hostOps0 (W0 m ρ c) (Proc.devRef .tc main_v3) = _
          after_results
          rfl

/-- At the first region's entry the feature array is as launched. -/
theorem W1_arg0 (c : Dev nD) : W1 m ρ c (Proc.devRef .tc main_arg0) = m ((c : Thread nD τ).loc main_arg0) := by
  calc W1 m ρ c (Proc.devRef .tc main_arg0)
    _ = W0 m ρ c (Proc.devRef .tc main_arg0) := by host_keeps hostOps0 main_arg0
    _ = m ((c : Thread nD τ).loc main_arg0) := rfl

/-- At the first region's entry the first weight matrix is as launched. -/
theorem W1_arg3 (c : Dev nD) : W1 m ρ c (Proc.devRef .tc main_arg3) = m ((c : Thread nD τ).loc main_arg3) := by
  calc W1 m ρ c (Proc.devRef .tc main_arg3)
    _ = W0 m ρ c (Proc.devRef .tc main_arg3) := by host_keeps hostOps0 main_arg3
    _ = m ((c : Thread nD τ).loc main_arg3) := rfl

/-- At that boundary the one-row matrix `main_v4` holds the bias vector `main_arg4` as a row. -/
theorem W1_v4 (c : Dev nD) :
    (W1 m ρ c (Proc.devRef .tc main_v4) : FVec F S1x64 .f32) = Host.biasRow (m ((c : Thread nD τ).loc main_arg4)) := by
  show StableHlo.after hostOps0 (W0 m ρ c) (Proc.devRef .tc main_v4) = _
  after_results
  rfl

/-- At the first projection's entry its weight matrix is as launched. -/
theorem W2_arg5 (c : Dev nD) : W2 m ρ c (Proc.devRef .tc main_arg5) = m ((c : Thread nD τ).loc main_arg5) := by
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0 main_arg5
    _ = m ((c : Thread nD τ).loc main_arg5) := rfl

/-- At the first combination's entry the state array is what the first region left in it. -/
theorem W4_v5 (c : Dev nD) : W4 m ρ c (Proc.devRef .tc main_v5) = W2 m ρ c (Proc.devRef .tc main_v5) := by
  calc W4 m ρ c (Proc.devRef .tc main_v5)
    _ = W3 m ρ c (Proc.devRef .tc main_v5) := by host_keeps hostOps2 main_v5
    _ = W2 m ρ c (Proc.devRef .tc main_v5) := (W3_arr m ρ c 0).trans (((dat1 (V2 m ρ) c).arrAt_in 0 rfl _).trans (A_eq1 (V2 m ρ) c 0))

/-- At the first combination's entry the message array is the aggregation, over the edges, of the first projection's result. -/
theorem W4_v16 (c : Dev nD) :
    (W4 m ρ c (Proc.devRef .tc main_v16) : FVec F S100000x64 .f32)
      = Host.seg (m ((c : Thread nD τ).loc main_arg2)) (W3 m ρ c (Proc.devRef .tc main_v6)) := by
  show StableHlo.after hostOps2 (W3 m ρ c) (Proc.devRef .tc main_v16) = _
  after_results
  rw [W3_v1 m ρ c, W3_v3 m ρ c]
  rfl

/-- At the first combination's entry the embedding array is as launched. -/
theorem W4_arg1 (c : Dev nD) : W4 m ρ c (Proc.devRef .tc main_arg1) = m ((c : Thread nD τ).loc main_arg1) := by
  calc W4 m ρ c (Proc.devRef .tc main_arg1)
    _ = W3 m ρ c (Proc.devRef .tc main_arg1) := by host_keeps hostOps2 main_arg1
    _ = m ((c : Thread nD τ).loc main_arg1) := W3_launch_main_arg1 m ρ c

/-- At the first combination's entry its first weight matrix is as launched. -/
theorem W4_arg6 (c : Dev nD) : W4 m ρ c (Proc.devRef .tc main_arg6) = m ((c : Thread nD τ).loc main_arg6) := by
  calc W4 m ρ c (Proc.devRef .tc main_arg6)
    _ = W3 m ρ c (Proc.devRef .tc main_arg6) := by host_keeps hostOps2 main_arg6
    _ = m ((c : Thread nD τ).loc main_arg6) := W3_launch_main_arg6 m ρ c

/-- At the first combination's entry its second weight matrix is as launched. -/
theorem W4_arg8 (c : Dev nD) : W4 m ρ c (Proc.devRef .tc main_arg8) = m ((c : Thread nD τ).loc main_arg8) := by
  calc W4 m ρ c (Proc.devRef .tc main_arg8)
    _ = W3 m ρ c (Proc.devRef .tc main_arg8) := by host_keeps hostOps2 main_arg8
    _ = m ((c : Thread nD τ).loc main_arg8) := W3_launch_main_arg8 m ρ c

/-- At that boundary the one-row matrix `main_v17` holds the bias vector `main_arg7` as a row. -/
theorem W4_v17 (c : Dev nD) :
    (W4 m ρ c (Proc.devRef .tc main_v17) : FVec F S1x64 .f32) = Host.biasRow (m ((c : Thread nD τ).loc main_arg7)) := by
  show StableHlo.after hostOps2 (W3 m ρ c) (Proc.devRef .tc main_v17) = _
  after_results
  rw [W3_launch_main_arg7 m ρ c]
  rfl

/-- At that boundary the one-row matrix `main_v18` holds the bias vector `main_arg9` as a row. -/
theorem W4_v18 (c : Dev nD) :
    (W4 m ρ c (Proc.devRef .tc main_v18) : FVec F S1x64 .f32) = Host.biasRow (m ((c : Thread nD τ).loc main_arg9)) := by
  show StableHlo.after hostOps2 (W3 m ρ c) (Proc.devRef .tc main_v18) = _
  after_results
  rw [W3_launch_main_arg9 m ρ c]
  rfl

end Cert.KernelIdeal.Walk

end
-- ==== Proof.Walk2.lean ====
import proofs.«163899_j66013647339805_1_alg».proof.Proof.Gen.KernelIdeal.Frame
import proofs.«163899_j66013647339805_1_alg».proof.Proof.HostFns
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer that none of a host stretch's operations writes: every operation's result buffer is another one. -/
local macro "unwritten" : tactic =>
  `(tactic| (refine List.forall_iff_forall_mem.mp ?_
             simp only [hostOps0, hostOps2, hostOps4, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- A buffer that no region up to the second projection takes as a window array and that the second host stretch does not
    write holds, after the second projection, what it held at the first region's entry. -/
private theorem W6_eq_W1 (c : Dev nD) (b : Ref sig .tc)
    (h3 : ∀ w, Pipeline.arrRef spec3 w ≠ b) (h2 : ∀ w, Pipeline.arrRef spec2 w ≠ b)
    (h1 : ∀ w, Pipeline.arrRef spec1 w ≠ b) (h0 : ∀ w, Pipeline.arrRef spec0 w ≠ b)
    (hh : ∀ op ∈ (hostOps2 : List (HloOp τ sig (Elt F))), Proc.devRef .tc b ∉ op.writes) :
    W6 m ρ c (Proc.devRef .tc b) = W1 m ρ c (Proc.devRef .tc b) :=
  calc W6 m ρ c (Proc.devRef .tc b)
    _ = W5 m ρ c (Proc.devRef .tc b) := W6_of_ne m ρ c b h3
    _ = W4 m ρ c (Proc.devRef .tc b) := W5_of_ne m ρ c b h2
    _ = W3 m ρ c (Proc.devRef .tc b) := StableHlo.after_of_forall_not_mem (b := Proc.devRef .tc b) _ _ hh
    _ = W2 m ρ c (Proc.devRef .tc b) := W3_of_ne m ρ c b h1
    _ = W1 m ρ c (Proc.devRef .tc b) := W2_of_ne m ρ c b h0

/-- The edges' source nodes, written by the first host stretch, are still in place after the second projection. -/
private theorem W6_v1 (c : Dev nD) :
    (W6 m ρ c (Proc.devRef .tc main_v1) : IVec S1600000 32) = Host.src (m ((c : Thread nD τ).loc main_arg2)) := by
  rw [W6_eq_W1 m ρ c main_v1 (by decide) (by decide) (by decide) (by decide) (by unwritten)]
  show StableHlo.after hostOps0 (W0 m ρ c) (Proc.devRef .tc main_v1) = _
  after_results
  rfl

/-- The edges' destination nodes likewise. -/
private theorem W6_v3 (c : Dev nD) :
    (W6 m ρ c (Proc.devRef .tc main_v3) : IVec S1600000 32) = Host.dst (m ((c : Thread nD τ).loc main_arg2)) := by
  rw [W6_eq_W1 m ρ c main_v3 (by decide) (by decide) (by decide) (by decide) (by unwritten)]
  show StableHlo.after hostOps0 (W0 m ρ c) (Proc.devRef .tc main_v3) = _
  after_results
  rfl

/-- An argument that no region up to the second projection takes and no host stretch writes is, after the second
    projection, as launched. -/
private theorem W6_arg (c : Dev nD) (b : Ref sig .tc)
    (h3 : ∀ w, Pipeline.arrRef spec3 w ≠ b) (h2 : ∀ w, Pipeline.arrRef spec2 w ≠ b)
    (h1 : ∀ w, Pipeline.arrRef spec1 w ≠ b) (h0 : ∀ w, Pipeline.arrRef spec0 w ≠ b)
    (hh2 : ∀ op ∈ (hostOps2 : List (HloOp τ sig (Elt F))), Proc.devRef .tc b ∉ op.writes)
    (hh0 : ∀ op ∈ (hostOps0 : List (HloOp τ sig (Elt F))), Proc.devRef .tc b ∉ op.writes) :
    W6 m ρ c (Proc.devRef .tc b) = m ((c : Thread nD τ).loc b) :=
  calc W6 m ρ c (Proc.devRef .tc b)
    _ = W1 m ρ c (Proc.devRef .tc b) := W6_eq_W1 m ρ c b h3 h2 h1 h0 hh2
    _ = W0 m ρ c (Proc.devRef .tc b) := StableHlo.after_of_forall_not_mem (b := Proc.devRef .tc b) _ _ hh0
    _ = m ((c : Thread nD τ).loc b) := rfl

/-! The contents of the buffers the last two regions read, at each region's entry, in terms of the launch memory
    and of what the earlier regions leave. -/

/-- At the second projection's entry its weight matrix is as launched. -/
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (by unwritten)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (by unwritten)
    _ = m ((c : Thread nD τ).loc main_arg10) := rfl

/-- At the second combination's entry the state array is what the first combination left in it. -/
theorem W7_v19 (c : Dev nD) : W7 m ρ c (Proc.devRef .tc main_v19) = W5 m ρ c (Proc.devRef .tc main_v19) :=
  calc W7 m ρ c (Proc.devRef .tc main_v19)
    _ = W6 m ρ c (Proc.devRef .tc main_v19) := StableHlo.after_of_forall_not_mem (b := Proc.devRef .tc main_v19) _ _ (by unwritten)
    _ = W5 m ρ c (Proc.devRef .tc main_v19) := (W6_arr m ρ c 0).trans (((dat3 (V5 m ρ) c).arrAt_in 0 rfl _).trans (A_eq3 (V5 m ρ) c 0))

/-- At the second combination's entry the message array is the aggregation, over the edges, of the second projection's result. -/
theorem W7_v30 (c : Dev nD) :
    (W7 m ρ c (Proc.devRef .tc main_v30) : FVec F S100000x64 .f32)
      = Host.seg (m ((c : Thread nD τ).loc main_arg2)) (W6 m ρ c (Proc.devRef .tc main_v20)) := by
  show StableHlo.after hostOps4 (W6 m ρ c) (Proc.devRef .tc main_v30) = _
  after_results
  rw [W6_v1 m ρ c, W6_v3 m ρ c]
  rfl

/-- At the second combination's entry the embedding array is as launched. -/
theorem W7_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (by unwritten)
    _ = W5 m ρ c (Proc.devRef .tc main_arg1) := W6_of_ne m ρ c main_arg1 (by decide)
    _ = W4 m ρ c (Proc.devRef .tc main_arg1) := (W5_arr m ρ c 2).trans (((dat2 (V4 m ρ) c).arrAt_in 2 rfl _).trans (A_eq2 (V4 m ρ) c 2))
    _ = W3 m ρ c (Proc.devRef .tc main_arg1) := StableHlo.after_of_forall_not_mem (b := Proc.devRef .tc main_arg1) _ _ (by unwritten)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by unwritten)
    _ = m ((c : Thread nD τ).loc main_arg1) := rfl

/-- At the second combination's entry its first weight matrix is as launched. -/
theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_forall_not_mem (b := Proc.devRef .tc main_arg11) _ _ (by unwritten)
    _ = m ((c : Thread nD τ).loc main_arg11) := W6_arg m ρ c main_arg11 (by decide) (by decide) (by decide) (by decide) (by unwritten) (by unwritten)

/-- At the second combination's entry its second weight matrix is as launched. -/
theorem W7_arg13 (c : Dev nD) : W7 m ρ c (Proc.devRef .tc main_arg13) = m ((c : Thread nD τ).loc main_arg13) :=
  calc W7 m ρ c (Proc.devRef .tc main_arg13)
    _ = W6 m ρ c (Proc.devRef .tc main_arg13) := StableHlo.after_of_forall_not_mem (b := Proc.devRef .tc main_arg13) _ _ (by unwritten)
    _ = m ((c : Thread nD τ).loc main_arg13) := W6_arg m ρ c main_arg13 (by decide) (by decide) (by decide) (by decide) (by unwritten) (by unwritten)

/-- At that boundary the one-row matrix `main_v31` holds the bias vector `main_arg12` as a row. -/
theorem W7_v31 (c : Dev nD) :
    (W7 m ρ c (Proc.devRef .tc main_v31) : FVec F S1x64 .f32) = Host.biasRow (m ((c : Thread nD τ).loc main_arg12)) := by
  show StableHlo.after hostOps4 (W6 m ρ c) (Proc.devRef .tc main_v31) = _
  after_results
  rw [W6_arg m ρ c main_arg12 (by decide) (by decide) (by decide) (by decide) (by unwritten) (by unwritten)]
  rfl

/-- At that boundary the one-row matrix `main_v32` holds the bias vector `main_arg14` as a row. -/
theorem W7_v32 (c : Dev nD) :
    (W7 m ρ c (Proc.devRef .tc main_v32) : FVec F S1x64 .f32) = Host.biasRow (m ((c : Thread nD τ).loc main_arg14)) := by
  show StableHlo.after hostOps4 (W6 m ρ c) (Proc.devRef .tc main_v32) = _
  after_results
  rw [W6_arg m ρ c main_arg14 (by decide) (by decide) (by decide) (by decide) (by unwritten) (by unwritten)]
  rfl

end Cert.KernelIdeal.Walk

end
-- ==== Proof.KernelValue.lean ====
import proofs.«163899_j66013647339805_1_alg».proof.Proof.RunNamed
import proofs.«163899_j66013647339805_1_alg».proof.Proof.Region0
import proofs.«163899_j66013647339805_1_alg».proof.Proof.Region1
import proofs.«163899_j66013647339805_1_alg».proof.Proof.Region2
import proofs.«163899_j66013647339805_1_alg».proof.Proof.Region3
import proofs.«163899_j66013647339805_1_alg».proof.Proof.Region4
import proofs.«163899_j66013647339805_1_alg».proof.Proof.Walk1
import proofs.«163899_j66013647339805_1_alg».proof.Proof.Walk2
import proofs.«163899_j66013647339805_1_alg».proof.Proof.HostFns
import proofs.«163899_j66013647339805_1_alg».proof.Proof.Spec
import Idealize.ShloMosaic.Lib.ValueLayout

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- A bias vector laid out as a one-row matrix reads, at column `q` of its row, the vector's entry `q`. -/
theorem biasRow_apply (b : FVec Ideal S64 .f32) (q : Fin 64) :
    Host.biasRow (F := Ideal) b (ix2 (0 : Fin 1) q) = b (ix1 q) := by
  unfold Host.biasRow
  exact shapeCast_a_1a_apply b shapeCasts_S64_S1x64 (0 : Fin 1) q

/-! ## The arrays the regions leave, one after the other, as functions of the launch memory -/

/-- The state after the first stage. -/
def X1 (c : Dev nD) : Mat 100000 64 := mlpG (m ((c : Thread nD τ).loc main_arg0)) (m ((c : Thread nD τ).loc main_arg3)) (m ((c : Thread nD τ).loc main_arg4))
/-- The first projection and the first aggregation. -/
def Y1 (c : Dev nD) : Mat 100000 64 := projG (X1 m c) (m ((c : Thread nD τ).loc main_arg5))
def H1 (c : Dev nD) : Mat 100000 64 := Host.seg (F := Ideal) (m ((c : Thread nD τ).loc main_arg2)) (Y1 m c)
/-- The state after the first layer. -/
def X2 (c : Dev nD) : Mat 100000 64 := combG (X1 m c) (H1 m c) (m ((c : Thread nD τ).loc main_arg1)) (m ((c : Thread nD τ).loc main_arg6)) (m ((c : Thread nD τ).loc main_arg7)) (m ((c : Thread nD τ).loc main_arg8)) (m ((c : Thread nD τ).loc main_arg9))
/-- The second projection and the second aggregation. -/
def Y2 (c : Dev nD) : Mat 100000 64 := projG (X2 m c) (m ((c : Thread nD τ).loc main_arg10))
def H2 (c : Dev nD) : Mat 100000 64 := Host.seg (F := Ideal) (m ((c : Thread nD τ).loc main_arg2)) (Y2 m c)

/-- The first region leaves the first stage of the launch arrays in the state array. -/
theorem at_v5 (c : Dev nD) : W2 m ρ c (Proc.devRef .tc main_v5) = X1 m c := by
  refine (W2_arr m ρ c 3).trans ?_
  refine (Region0.arr (V1 m ρ) c (m ((c : Thread nD τ).loc main_arg4)) (fun q => ?_)).trans ?_
  · show (W1 m ρ c (Proc.devRef .tc main_v4) : FVec Ideal S1x64 .f32) (ix2 (0 : Fin 1) q) = _
    rw [Walk.W1_v4 m ρ c]
    exact biasRow_apply _ q
  · show mlpG (W1 m ρ c (Proc.devRef .tc main_arg0)) (W1 m ρ c (Proc.devRef .tc main_arg3)) _ = _
    rw [Walk.W1_arg0 m ρ c, Walk.W1_arg3 m ρ c]
    rfl

/-- The first projection region leaves the projected state in its result array. -/
theorem at_v6 (c : Dev nD) : W3 m ρ c (Proc.devRef .tc main_v6) = Y1 m c := by
  refine (W3_arr m ρ c 2).trans ?_
  refine (Region1.arr (V2 m ρ) c).trans ?_
  show projG (W2 m ρ c (Proc.devRef .tc main_v5)) (W2 m ρ c (Proc.devRef .tc main_arg5)) = _
  rw [at_v5 m ρ c, Walk.W2_arg5 m ρ c]
  rfl

/-- The first combination region leaves the state after the first layer. -/
theorem at_v19 (c : Dev nD) : W5 m ρ c (Proc.devRef .tc main_v19) = X2 m c := by
  refine (W5_arr m ρ c 7).trans ?_
  refine (Region2.arr (V4 m ρ) c (m ((c : Thread nD τ).loc main_arg7)) (m ((c : Thread nD τ).loc main_arg9)) (fun q => ?_) (fun q => ?_)).trans ?_
  · show (W4 m ρ c (Proc.devRef .tc main_v17) : FVec Ideal S1x64 .f32) (ix2 (0 : Fin 1) q) = _
    rw [Walk.W4_v17 m ρ c]
    exact biasRow_apply _ q
  · show (W4 m ρ c (Proc.devRef .tc main_v18) : FVec Ideal S1x64 .f32) (ix2 (0 : Fin 1) q) = _
    rw [Walk.W4_v18 m ρ c]
    exact biasRow_apply _ q
  · show combG (W4 m ρ c (Proc.devRef .tc main_v5)) (W4 m ρ c (Proc.devRef .tc main_v16) : FVec Ideal S100000x64 .f32)
        (W4 m ρ c (Proc.devRef .tc main_arg1)) (W4 m ρ c (Proc.devRef .tc main_arg6)) _ (W4 m ρ c (Proc.devRef .tc main_arg8)) _ = _
    rw [Walk.W4_v5 m ρ c, Walk.W4_v16 m ρ c, Walk.W4_arg1 m ρ c, Walk.W4_arg6 m ρ c, Walk.W4_arg8 m ρ c, at_v5 m ρ c, at_v6 m ρ c]
    rfl

/-- The second projection region leaves the projected state in its result array. -/
theorem at_v20 (c : Dev nD) : W6 m ρ c (Proc.devRef .tc main_v20) = Y2 m c := by
  refine (W6_arr m ρ c 2).trans ?_
  refine (Region3.arr (V5 m ρ) c).trans ?_
  show projG (W5 m ρ c (Proc.devRef .tc main_v19)) (W5 m ρ c (Proc.devRef .tc main_arg10)) = _
  rw [at_v19 m ρ c, Walk.W5_arg10 m ρ c]
  rfl

/-- The last region leaves the state after the second layer in the result array. -/
theorem at_v33 (c : Dev nD) :
    W8 m ρ c (Proc.devRef .tc main_v33)
      = combG (X2 m c) (H2 m c) (m ((c : Thread nD τ).loc main_arg1)) (m ((c : Thread nD τ).loc main_arg11)) (m ((c : Thread nD τ).loc main_arg12)) (m ((c : Thread nD τ).loc main_arg13)) (m ((c : Thread nD τ).loc main_arg14)) := by
  refine (W8_arr m ρ c 7).trans ?_
  refine (Region4.arr (V7 m ρ) c (m ((c : Thread nD τ).loc main_arg12)) (m ((c : Thread nD τ).loc main_arg14)) (fun q => ?_) (fun q => ?_)).trans ?_
  · show (W7 m ρ c (Proc.devRef .tc main_v31) : FVec Ideal S1x64 .f32) (ix2 (0 : Fin 1) q) = _
    rw [Walk.W7_v31 m ρ c]
    exact biasRow_apply _ q
  · show (W7 m ρ c (Proc.devRef .tc main_v32) : FVec Ideal S1x64 .f32) (ix2 (0 : Fin 1) q) = _
    rw [Walk.W7_v32 m ρ c]
    exact biasRow_apply _ q
  · show combG (W7 m ρ c (Proc.devRef .tc main_v19)) (W7 m ρ c (Proc.devRef .tc main_v30) : FVec Ideal S100000x64 .f32)
        (W7 m ρ c (Proc.devRef .tc main_arg1)) (W7 m ρ c (Proc.devRef .tc main_arg11)) _ (W7 m ρ c (Proc.devRef .tc main_arg13)) _ = _
    rw [Walk.W7_v19 m ρ c, Walk.W7_v30 m ρ c, Walk.W7_arg1 m ρ c, Walk.W7_arg11 m ρ c, Walk.W7_arg13 m ρ c, at_v19 m ρ c, at_v20 m ρ c]
    rfl

/-- The kernel program's run: every weakly fair execution terminates without a fault, the result array holds the
    state after the second layer, as a function of the launch arrays, and every argument array is unchanged. -/
theorem run : θ_run defs (onTc (τ := τ) (main (F := Ideal))) ⟨m, fun _ => 0, ρ⟩ (fun r => ∀ c : Dev nD,
      r.2.mem ((c.tc : Thread nD τ).loc main_v33)
        = combG (X2 m c) (H2 m c) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (at_v33 m ρ c), (h c).2⟩) (run_named m ρ)

end Cert.KernelIdeal.Value

end
-- ==== Proof.RefFirst.lean ====
import proofs.«163899_j66013647339805_1_alg».proof.Proof.ReadP
import proofs.«163899_j66013647339805_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.ReadP

/-! ## Where the reference reads its operands

Read at row `r` and column `q`, each layout operation of the first stage reads its operand at an index made of the
same coordinates: the product's operands at `(r, k)` and `(k, q)`, the bias at `q`, the row sum at row `r`. -/

theorem lidx_v4_ix (r : Fin 100000) (j : Fin 64) (k : Fin 128) : lidx_main_v4 (ix2 r j) k = ix2 r k :=
  funext fun a => Fin.ext (by match a with | ⟨0, _⟩ => rfl | ⟨1, _⟩ => rfl)
theorem ridx_v4_ix (r : Fin 100000) (j : Fin 64) (k : Fin 128) : ridx_main_v4 (ix2 r j) k = ix2 k j :=
  funext fun a => Fin.ext (by match a with | ⟨0, _⟩ => rfl | ⟨1, _⟩ => rfl)
theorem idx_v5_v6_ix (r : Fin 100000) (j : Fin 64) : idx_main_v5 (idx_main_v6 (ix2 r j)) = ix1 j :=
  funext fun a => Fin.ext (by match a with | ⟨0, _⟩ => rfl)
theorem idx_v10_v14_ix (r : Fin 100000) (q : Fin 64) : idx_main_v10 (idx_main_v14 (ix2 r q)) = ix1 r :=
  funext fun a => Fin.ext (by match a with | ⟨0, _⟩ => rfl)
theorem idx_v9_ix (r : Fin 100000) (k : Fin 64) : idx_main_v9 (ix1 r) k = ix2 r k :=
  funext fun a => Fin.ext (by match a with | ⟨0, _⟩ => rfl | ⟨1, _⟩ => rfl)

/-! ## The first stage, piece by piece -/

/-- The affine map at row `r`, column `j`: the row's product with the weights plus the bias. -/
theorem affine_apply (x0 : (⟨S100000x128, .f32⟩ : BufTy).Contents (Elt Ideal)) (x3 : (⟨S128x64, .f32⟩ : BufTy).Contents (Elt Ideal)) (x4 : (⟨S64, .f32⟩ : BufTy).Contents (Elt Ideal))
    (r : Fin 100000) (j : Fin 64) :
    val_main_v7 (F := Ideal) x0 x3 x4 (ix2 r j)
      = Cert.Spec.dot (fun k : Fin 128 => x0 (ix2 r k)) (fun (k : Fin 128) (q' : Fin 64) => x3 (ix2 k q')) j + x4 (ix1 j) := by
  rw [val_main_v7_apply, val_main_v4_apply, val_main_v6_apply, val_main_v5_apply, idx_v5_v6_ix]
  simp only [lidx_v4_ix, ridx_v4_ix]
  rfl

/-- The row sum of the squares at row `r`: from zero, the sum over the columns of the affine map's square. -/
theorem sumsq_apply (x0 : (⟨S100000x128, .f32⟩ : BufTy).Contents (Elt Ideal)) (x3 : (⟨S128x64, .f32⟩ : BufTy).Contents (Elt Ideal)) (x4 : (⟨S64, .f32⟩ : BufTy).Contents (Elt Ideal))
    (r : Fin 100000) :
    val_main_v9 (F := Ideal) x0 x3 x4 (ix1 r)
      = ∑ j : Fin 64, (Cert.Spec.dot (fun k : Fin 128 => x0 (ix2 r k)) (fun (k : Fin 128) (q' : Fin 64) => x3 (ix2 k q')) j + x4 (ix1 j))
          * (Cert.Spec.dot (fun k : Fin 128 => x0 (ix2 r k)) (fun (k : Fin 128) (q' : Fin 64) => x3 (ix2 k q')) j + x4 (ix1 j)) := by
  rw [val_main_v9_apply, val_main_cst_apply]
  show Ideal.ofBits .f32 0x00000000#32 + _ = _
  rw [Ideal.ofBits_zero_f32, zero_add]
  refine Finset.sum_congr rfl fun j _ => ?_
  rw [idx_v9_ix, val_main_v8_apply, affine_apply]
  rfl

/-- The divisor at row `r`, any column: the square root of the row sum, bounded below by `eps`. -/
theorem norm_apply (x0 : (⟨S100000x128, .f32⟩ : BufTy).Contents (Elt Ideal)) (x3 : (⟨S128x64, .f32⟩ : BufTy).Contents (Elt Ideal)) (x4 : (⟨S64, .f32⟩ : BufTy).Contents (Elt Ideal))
    (r : Fin 100000) (q : Fin 64) :
    val_main_v14 (F := Ideal) x0 x3 x4 (ix2 r q)
      = max (Ideal.sqrt (∑ j : Fin 64, (Cert.Spec.dot (fun k : Fin 128 => x0 (ix2 r k)) (fun (k : Fin 128) (q' : Fin 64) => x3 (ix2 k q')) j + x4 (ix1 j))
          * (Cert.Spec.dot (fun k : Fin 128 => x0 (ix2 r k)) (fun (k : Fin 128) (q' : Fin 64) => x3 (ix2 k q')) j + x4 (ix1 j)))) Cert.Spec.eps := by
  rw [val_main_v14_apply, val_main_v13_apply, val_main_v11_apply, val_main_v10_apply, val_main_v12_apply, val_main_cst_0_apply,
    idx_v10_v14_ix, sumsq_apply]
  rfl

/-- The reference's normalised first-stage array is the first stage of the specification. -/
theorem stage_x1 (x0 : (⟨S100000x128, .f32⟩ : BufTy).Contents (Elt Ideal)) (x3 : (⟨S128x64, .f32⟩ : BufTy).Contents (Elt Ideal)) (x4 : (⟨S64, .f32⟩ : BufTy).Contents (Elt Ideal)) :
    val_main_v15 (F := Ideal) x0 x3 x4 = Cert.Spec.mlpG x0 x3 x4 := by
  funext i
  obtain ⟨r, q, rfl⟩ : ∃ (r : Fin 100000) (q : Fin 64), i = ix2 r q := ⟨i 0, i 1, eq_ix2 i⟩
  rw [Cert.Spec.mlpG_apply]
  unfold Cert.Spec.mlpRow Cert.Spec.row Cert.Spec.mat Cert.Spec.vec
  rw [val_main_v15_apply, affine_apply, norm_apply, Ideal.hostDivf_def]

end Cert.ReferenceIdeal.Stages

end
-- ==== Proof.RefProj.lean ====
import proofs.«163899_j66013647339805_1_alg».proof.Proof.ReadP
import proofs.«163899_j66013647339805_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.ReadP

/-- A row of `Y · W` written out is the projection at that row and column. -/
theorem proj_alg (Y : Cert.Spec.Mat 100000 64) (W : Cert.Spec.Mat 64 64) (r : Fin 100000) (q : Fin 64) :
    (∑ k : Fin 64, Y (ix2 r k) * W (ix2 k q)) = Cert.Spec.projG Y W (ix2 r q) := rfl

theorem lidx16 (r : Fin 100000) (q k : Fin 64) : lidx_main_v16 (ix2 r q) k = ix2 r k :=
  funext fun a => Fin.ext (by match a with | ⟨0, _⟩ => rfl | ⟨1, _⟩ => rfl)
theorem ridx16 (r : Fin 100000) (q k : Fin 64) : ridx_main_v16 (ix2 r q) k = ix2 k q :=
  funext fun a => Fin.ext (by match a with | ⟨0, _⟩ => rfl | ⟨1, _⟩ => rfl)
theorem lidx52 (r : Fin 100000) (q k : Fin 64) : lidx_main_v52 (ix2 r q) k = ix2 r k :=
  funext fun a => Fin.ext (by match a with | ⟨0, _⟩ => rfl | ⟨1, _⟩ => rfl)
theorem ridx52 (r : Fin 100000) (q k : Fin 64) : ridx_main_v52 (ix2 r q) k = ix2 k q :=
  funext fun a => Fin.ext (by match a with | ⟨0, _⟩ => rfl | ⟨1, _⟩ => rfl)

/-- The reference's first projection. -/
theorem stage_y1 (x0 : (⟨S100000x128, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v16 (F := Ideal) x0 x3 x4 x5 = Cert.Spec.projG (val_main_v15 (F := Ideal) x0 x3 x4) x5 := by
  funext i
  obtain ⟨r, q, rfl⟩ : ∃ (r : Fin 100000) (q : Fin 64), i = ix2 r q := ⟨i 0, i 1, eq_ix2 i⟩
  rw [val_main_v16_apply]
  refine (Finset.sum_congr rfl fun k _ => by rw [lidx16, ridx16]).trans ?_
  exact proj_alg (val_main_v15 (F := Ideal) x0 x3 x4) x5 r q

/-- The reference's second projection. -/
theorem stage_y2 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v52 (F := Ideal) x0 x1 x2 x3 x4 x5 x6 x7 x8 x9 x10 = Cert.Spec.projG (val_main_v51 (F := Ideal) x0 x1 x2 x3 x4 x5 x6 x7 x8 x9) x10 := by
  funext i
  obtain ⟨r, q, rfl⟩ : ∃ (r : Fin 100000) (q : Fin 64), i = ix2 r q := ⟨i 0, i 1, eq_ix2 i⟩
  rw [val_main_v52_apply]
  refine (Finset.sum_congr rfl fun k _ => by rw [lidx52, ridx52]).trans ?_
  exact proj_alg (val_main_v51 (F := Ideal) x0 x1 x2 x3 x4 x5 x6 x7 x8 x9) x10 r q

end Cert.ReferenceIdeal.Stages

end
-- ==== Proof.RefSeg.lean ====
import proofs.«163899_j66013647339805_1_alg».proof.Proof.ReadP
import proofs.«163899_j66013647339805_1_alg».proof.Proof.Spec
import proofs.«163899_j66013647339805_1_alg».proof.Proof.HostFns
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.ReadP

/-- The reference's first aggregation is the shared chain of host operations applied to its first projection. -/
theorem stage_h1 {F : FTy → Type} [FloatOps F] (x0 : (⟨S100000x128, .f32⟩ : BufTy).Contents (Elt F)) (x2 : (⟨S2x1600000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) :
    val_main_v26 (F := F) x0 x2 x3 x4 x5 = Cert.KernelIdeal.Host.seg (F := F) x2 (val_main_v16 (F := F) x0 x3 x4 x5) := by
  -- Both sides are the same chain: the two rows of the edge array as source and destination, a source below zero
  -- moved up by the node count, the projection's rows gathered at the sources and summed into the destinations from zero.
  unfold val_main_v26 val_main_v25 val_main_v24 val_main_cst_2 val_main_v23 val_main_v22 val_main_v21 val_main_v20 val_main_v19
    val_main_c_1 val_main_v18 val_main_v17 val_main_c val_main_v3 val_main_v2 val_main_v1 val_main_v0
  generalize val_main_v16 (F := F) x0 x3 x4 x5 = y
  unfold Cert.KernelIdeal.Host.seg Cert.KernelIdeal.Host.wrap Cert.KernelIdeal.Host.src Cert.KernelIdeal.Host.dst
  rfl

/-- The reference's second aggregation. -/
theorem stage_h2 {F : FTy → Type} [FloatOps F] (x0 : (⟨S100000x128, .f32⟩ : BufTy).Contents (Elt F)) (x1 : (⟨S100000x64, .f32⟩ : BufTy).Contents (Elt F)) (x2 : (⟨S2x1600000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) :
    val_main_v62 (F := F) x0 x1 x2 x3 x4 x5 x6 x7 x8 x9 x10 = Cert.KernelIdeal.Host.seg (F := F) x2 (val_main_v52 (F := F) x0 x1 x2 x3 x4 x5 x6 x7 x8 x9 x10) := by
  unfold val_main_v62 val_main_v61 val_main_v60 val_main_cst_11 val_main_v59 val_main_v58 val_main_v57 val_main_v56 val_main_v55
    val_main_c_10 val_main_v54 val_main_v53 val_main_c_9 val_main_v3 val_main_v2 val_main_v1 val_main_v0
  generalize val_main_v52 (F := F) x0 x1 x2 x3 x4 x5 x6 x7 x8 x9 x10 = y
  unfold Cert.KernelIdeal.Host.seg Cert.KernelIdeal.Host.wrap Cert.KernelIdeal.Host.src Cert.KernelIdeal.Host.dst
  rfl

end Cert.ReferenceIdeal.Stages

end
-- ==== Proof.RefComb.lean ====
import proofs.«163899_j66013647339805_1_alg».proof.Proof.ReadP
import proofs.«163899_j66013647339805_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Stages

open Idealize.ShloMosaic Idealize.ShloMosaic.ValueIdx Cert.ReferenceIdeal Cert.ReferenceIdeal.ReadP

/-! The reference program's stages, read as the specification's functions: each stage below is one of the reference's
    intermediate arrays as a function of the argument arrays; it is the specification's function of the stages
    before it. -/

/-- The leaky rectifier as the program writes it: compare with the zero word, multiply by the slope word, choose. -/
private theorem leaky_read (v z s : EReal) (hz : z = Ideal.ofBits .f32 0x00000000#32)
    (hs : s = Ideal.ofBits .f32 0x3C23D70A#32) :
    Scalar.select (FloatOps.cmpf (F := Ideal) (φ := .f32) .oge v z) v (FloatOps.mulf (F := Ideal) (φ := .f32) s v)
      = Cert.Spec.leaky v := by
  subst hz hs
  rfl

/-- One entry of a layer's combination, with the two matrix products written as sums over the shared axis. -/
private theorem comb_alg (X H E : Cert.Spec.Mat 100000 64) (Wl : Cert.Spec.Mat 64 64) (Bl : Cert.Spec.Vec1 64)
    (Wg : Cert.Spec.Mat 64 64) (Bg : Cert.Spec.Vec1 64) (r : Fin 100000) (q : Fin 64) :
    Cert.Spec.leaky
        (FloatOps.addf (F := Ideal) (φ := .f32)
          (FloatOps.addf (F := Ideal) (φ := .f32) (∑ k : Fin 64, Cert.Spec.leaky (H (ix2 r k)) * Wg (ix2 k q)) (Bg (ix1 q)))
          (FloatOps.addf (F := Ideal) (φ := .f32)
            (Cert.Spec.leaky (FloatOps.addf (F := Ideal) (φ := .f32) (∑ k : Fin 64, X (ix2 r k) * Wl (ix2 k q)) (Bl (ix1 q))))
            (E (ix2 r q))))
      = Cert.Spec.combRow (Cert.Spec.row X r) (Cert.Spec.row H r) (Cert.Spec.row E r) (Cert.Spec.mat Wl) (Cert.Spec.vec Bl)
          (Cert.Spec.mat Wg) (Cert.Spec.vec Bg) q := rfl

/-- The reference's state after the first layer. -/
theorem stage_x2 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v51 (F := Ideal) x0 x1 x2 x3 x4 x5 x6 x7 x8 x9
      = Cert.Spec.combG (val_main_v15 (F := Ideal) x0 x3 x4) (val_main_v26 (F := Ideal) x0 x2 x3 x4 x5) x1 x6 x7 x8 x9 := by
  funext i
  obtain ⟨r, q, rfl⟩ : ∃ (r : Fin 100000) (q : Fin 64), i = ix2 r q := ⟨i 0, i 1, eq_ix2 i⟩
  -- the three rectifiers, at any index
  have h31 : ∀ j, val_main_v31 (F := Ideal) x0 x2 x3 x4 x5 j
      = Cert.Spec.leaky (val_main_v26 (F := Ideal) x0 x2 x3 x4 x5 j) := fun j => by
    rw [val_main_v31_apply, val_main_v28_apply, val_main_v30_apply]
    exact leaky_read _ _ _ ((val_main_v27_apply j).trans rfl) ((val_main_v29_apply j).trans rfl)
  have h40 : ∀ j, val_main_v40 (F := Ideal) x0 x3 x4 x6 x7 j
      = Cert.Spec.leaky (val_main_v35 (F := Ideal) x0 x3 x4 x6 x7 j) := fun j => by
    rw [val_main_v40_apply, val_main_v37_apply, val_main_v39_apply]
    exact leaky_read _ _ _ ((val_main_v36_apply j).trans rfl) ((val_main_v38_apply j).trans rfl)
  have h51 : ∀ j, val_main_v51 (F := Ideal) x0 x1 x2 x3 x4 x5 x6 x7 x8 x9 j
      = Cert.Spec.leaky (val_main_v46 (F := Ideal) x0 x1 x2 x3 x4 x5 x6 x7 x8 x9 j) := fun j => by
    rw [val_main_v51_apply, val_main_v48_apply, val_main_v50_apply]
    exact leaky_read _ _ _ ((val_main_v47_apply j).trans rfl) ((val_main_v49_apply j).trans rfl)
  -- the indices the two products and the two bias rows are read at
  have el32 : ∀ k : Fin 64, lidx_main_v32 (ix2 r q) k = ix2 r k := fun k => funext fun a => by
    match a with | ⟨0, _⟩ => rfl | ⟨1, _⟩ => rfl
  have er32 : ∀ k : Fin 64, ridx_main_v32 (ix2 r q) k = ix2 k q := fun k => funext fun a => by
    match a with | ⟨0, _⟩ => rfl | ⟨1, _⟩ => rfl
  have el42 : ∀ k : Fin 64, lidx_main_v42 (ix2 r q) k = ix2 r k := fun k => funext fun a => by
    match a with | ⟨0, _⟩ => rfl | ⟨1, _⟩ => rfl
  have er42 : ∀ k : Fin 64, ridx_main_v42 (ix2 r q) k = ix2 k q := fun k => funext fun a => by
    match a with | ⟨0, _⟩ => rfl | ⟨1, _⟩ => rfl
  have e34 : idx_main_v33 (idx_main_v34 (ix2 r q)) = ix1 q := funext fun a => by
    match a with | ⟨0, _⟩ => rfl
  have e44 : idx_main_v43 (idx_main_v44 (ix2 r q)) = ix1 q := funext fun a => by
    match a with | ⟨0, _⟩ => rfl
  -- the two products, each summand read at explicit coordinates
  have hs32 : (∑ k : Fin 64, val_main_v15 (F := Ideal) x0 x3 x4 (lidx_main_v32 (ix2 r q) k) * x6 (ridx_main_v32 (ix2 r q) k))
      = ∑ k : Fin 64, val_main_v15 (F := Ideal) x0 x3 x4 (ix2 r k) * x6 (ix2 k q) := by
    refine Finset.sum_congr rfl fun k _ => ?_
    rw [el32 k, er32 k]
  have hs42 : (∑ k : Fin 64, val_main_v31 (F := Ideal) x0 x2 x3 x4 x5 (lidx_main_v42 (ix2 r q) k) * x8 (ridx_main_v42 (ix2 r q) k))
      = ∑ k : Fin 64, Cert.Spec.leaky (val_main_v26 (F := Ideal) x0 x2 x3 x4 x5 (ix2 r k)) * x8 (ix2 k q) := by
    refine Finset.sum_congr rfl fun k _ => ?_
    rw [el42 k, er42 k, h31]
  -- the stage read down to the two earlier stages and the arguments
  rw [Cert.Spec.combG_apply, h51, val_main_v46_apply, val_main_v45_apply, val_main_v41_apply, h40, val_main_v35_apply,
    val_main_v42_apply, hs42, val_main_v32_apply, hs32,
    val_main_v44_apply, val_main_v43_apply, e44, val_main_v34_apply, val_main_v33_apply, e34]
  exact comb_alg (val_main_v15 (F := Ideal) x0 x3 x4) (val_main_v26 (F := Ideal) x0 x2 x3 x4 x5) x1 x6 x7 x8 x9 r q

/-- The reference's result: the state after the second layer. -/
theorem stage_out (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v87 (F := Ideal) x0 x1 x2 x3 x4 x5 x6 x7 x8 x9 x10 x11 x12 x13 x14
      = Cert.Spec.combG (val_main_v51 (F := Ideal) x0 x1 x2 x3 x4 x5 x6 x7 x8 x9) (val_main_v62 (F := Ideal) x0 x1 x2 x3 x4 x5 x6 x7 x8 x9 x10) x1 x11 x12 x13 x14 := by
  funext i
  obtain ⟨r, q, rfl⟩ : ∃ (r : Fin 100000) (q : Fin 64), i = ix2 r q := ⟨i 0, i 1, eq_ix2 i⟩
  -- the three rectifiers, at any index
  have h67 : ∀ j, val_main_v67 (F := Ideal) x0 x1 x2 x3 x4 x5 x6 x7 x8 x9 x10 j
      = Cert.Spec.leaky (val_main_v62 (F := Ideal) x0 x1 x2 x3 x4 x5 x6 x7 x8 x9 x10 j) := fun j => by
    rw [val_main_v67_apply, val_main_v64_apply, val_main_v66_apply]
    exact leaky_read _ _ _ ((val_main_v63_apply j).trans rfl) ((val_main_v65_apply j).trans rfl)
  have h76 : ∀ j, val_main_v76 (F := Ideal) x0 x1 x2 x3 x4 x5 x6 x7 x8 x9 x11 x12 j
      = Cert.Spec.leaky (val_main_v71 (F := Ideal) x0 x1 x2 x3 x4 x5 x6 x7 x8 x9 x11 x12 j) := fun j => by
    rw [val_main_v76_apply, val_main_v73_apply, val_main_v75_apply]
    exact leaky_read _ _ _ ((val_main_v72_apply j).trans rfl) ((val_main_v74_apply j).trans rfl)
  have h87 : ∀ j, val_main_v87 (F := Ideal) x0 x1 x2 x3 x4 x5 x6 x7 x8 x9 x10 x11 x12 x13 x14 j
      = Cert.Spec.leaky (val_main_v82 (F := Ideal) x0 x1 x2 x3 x4 x5 x6 x7 x8 x9 x10 x11 x12 x13 x14 j) := fun j => by
    rw [val_main_v87_apply, val_main_v84_apply, val_main_v86_apply]
    exact leaky_read _ _ _ ((val_main_v83_apply j).trans rfl) ((val_main_v85_apply j).trans rfl)
  -- the indices the two products and the two bias rows are read at
  have el68 : ∀ k : Fin 64, lidx_main_v68 (ix2 r q) k = ix2 r k := fun k => funext fun a => by
    match a with | ⟨0, _⟩ => rfl | ⟨1, _⟩ => rfl
  have er68 : ∀ k : Fin 64, ridx_main_v68 (ix2 r q) k = ix2 k q := fun k => funext fun a => by
    match a with | ⟨0, _⟩ => rfl | ⟨1, _⟩ => rfl
  have el78 : ∀ k : Fin 64, lidx_main_v78 (ix2 r q) k = ix2 r k := fun k => funext fun a => by
    match a with | ⟨0, _⟩ => rfl | ⟨1, _⟩ => rfl
  have er78 : ∀ k : Fin 64, ridx_main_v78 (ix2 r q) k = ix2 k q := fun k => funext fun a => by
    match a with | ⟨0, _⟩ => rfl | ⟨1, _⟩ => rfl
  have e70 : idx_main_v69 (idx_main_v70 (ix2 r q)) = ix1 q := funext fun a => by
    match a with | ⟨0, _⟩ => rfl
  have e80 : idx_main_v79 (idx_main_v80 (ix2 r q)) = ix1 q := funext fun a => by
    match a with | ⟨0, _⟩ => rfl
  -- the two products, each summand read at explicit coordinates
  have hs68 : (∑ k : Fin 64, val_main_v51 (F := Ideal) x0 x1 x2 x3 x4 x5 x6 x7 x8 x9 (lidx_main_v68 (ix2 r q) k) * x11 (ridx_main_v68 (ix2 r q) k))
      = ∑ k : Fin 64, val_main_v51 (F := Ideal) x0 x1 x2 x3 x4 x5 x6 x7 x8 x9 (ix2 r k) * x11 (ix2 k q) := by
    refine Finset.sum_congr rfl fun k _ => ?_
    rw [el68 k, er68 k]
  have hs78 : (∑ k : Fin 64, val_main_v67 (F := Ideal) x0 x1 x2 x3 x4 x5 x6 x7 x8 x9 x10 (lidx_main_v78 (ix2 r q) k) * x13 (ridx_main_v78 (ix2 r q) k))
      = ∑ k : Fin 64, Cert.Spec.leaky (val_main_v62 (F := Ideal) x0 x1 x2 x3 x4 x5 x6 x7 x8 x9 x10 (ix2 r k)) * x13 (ix2 k q) := by
    refine Finset.sum_congr rfl fun k _ => ?_
    rw [el78 k, er78 k, h67]
  -- the stage read down to the two earlier stages and the arguments
  rw [Cert.Spec.combG_apply, h87, val_main_v82_apply, val_main_v81_apply, val_main_v77_apply, h76, val_main_v71_apply,
    val_main_v78_apply, hs78, val_main_v68_apply, hs68,
    val_main_v80_apply, val_main_v79_apply, e80, val_main_v70_apply, val_main_v69_apply, e70]
  exact comb_alg (val_main_v51 (F := Ideal) x0 x1 x2 x3 x4 x5 x6 x7 x8 x9) (val_main_v62 (F := Ideal) x0 x1 x2 x3 x4 x5 x6 x7 x8 x9 x10) x1 x11 x12 x13 x14 r q

end Cert.ReferenceIdeal.Stages

end
-- ==== Proof.Net.lean ====
import proofs.«163899_j66013647339805_1_alg».proof.Proof.Spec
import proofs.«163899_j66013647339805_1_alg».proof.Proof.HostFns

noncomputable section

namespace Cert.Net

open Idealize.ShloMosaic Cert.Spec Cert.KernelIdeal Cert.KernelIdeal.Host

/-- The whole network as one function of the fifteen argument arrays: the first stage, then two layers; each layer
    projects the state, aggregates the projected rows over the edges, and combines state, messages and embedding. -/
def net (x0 : Mat 100000 128) (x1 : Mat 100000 64) (x2 : IVec S2x1600000 32) (x3 : Mat 128 64) (x4 : Vec1 64)
    (x5 x6 : Mat 64 64) (x7 : Vec1 64) (x8 : Mat 64 64) (x9 : Vec1 64)
    (x10 x11 : Mat 64 64) (x12 : Vec1 64) (x13 : Mat 64 64) (x14 : Vec1 64) : Mat 100000 64 :=
  combG (combG (mlpG x0 x3 x4) (seg (F := Ideal) x2 (projG (mlpG x0 x3 x4) x5)) x1 x6 x7 x8 x9)
    (seg (F := Ideal) x2 (projG (combG (mlpG x0 x3 x4) (seg (F := Ideal) x2 (projG (mlpG x0 x3 x4) x5)) x1 x6 x7 x8 x9) x10))
    x1 x11 x12 x13 x14

end Cert.Net

end
-- ==== Proof.RefStages.lean ====
import proofs.«163899_j66013647339805_1_alg».proof.Proof.RefFirst
import proofs.«163899_j66013647339805_1_alg».proof.Proof.RefProj
import proofs.«163899_j66013647339805_1_alg».proof.Proof.RefSeg
import proofs.«163899_j66013647339805_1_alg».proof.Proof.RefComb
import proofs.«163899_j66013647339805_1_alg».proof.Proof.Net

noncomputable section

namespace Cert.ReferenceIdeal.Stages

open Idealize.ShloMosaic Cert.ReferenceIdeal Cert.ReferenceIdeal.ReadP

/-- The reference's result is the network function of the argument arrays: its stages, composed. -/
theorem net_eq (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v87 (F := Ideal) x0 x1 x2 x3 x4 x5 x6 x7 x8 x9 x10 x11 x12 x13 x14 = Cert.Net.net x0 x1 x2 x3 x4 x5 x6 x7 x8 x9 x10 x11 x12 x13 x14 := by
  rw [stage_out, stage_h2, stage_y2, stage_x2, stage_h1, stage_y1, stage_x1]
  rfl

end Cert.ReferenceIdeal.Stages

end
-- ==== Proof.lean ====
/-
  The kernel program and the reference compute one function of their fifteen argument arrays.

  The network: node features pass through an affine map and are divided, row by row, by their Euclidean norm
  (bounded below by a small constant); then two layers follow, each of which projects the node states, sums the
  projected rows of every edge's source into the edge's destination, and combines, row by row, the node's state, its
  summed messages and its embedding through two more affine maps and leaky rectifiers.

  The kernel program computes the dense stages in five pipelined regions over blocks of 10000 rows and the edge
  sums by host operations between them; the reference computes everything by host operations on whole arrays. Every
  dense stage acts on one row at a time, so a block of a stage's result is the stage applied to the same rows of its
  inputs, and the blocks of the ten grid points tile the array: each region leaves the whole-array stage of the
  arrays it finds (Region0 … Region4). The contents the regions find are followed from the launch memory through
  the host operations and the earlier regions (Walk1, Walk2), which gives the kernel's result array as the network
  function of the launch arrays (KernelValue). The reference's result is read stage by stage as the same function
  (RefFirst, RefComb, RefStages); the edge sums are the same chain of host operations on both sides and are never
  opened. No algebraic law beyond the definitions of the operations on the extended reals is used, so the inputs'
  finiteness is not needed.
-/
import proofs.«163899_j66013647339805_1_alg».proof.Defs
import proofs.«163899_j66013647339805_1_alg».proof.Proof.Gen.Kernel
import proofs.«163899_j66013647339805_1_alg».proof.Proof.Gen.Kernel.Frame
import proofs.«163899_j66013647339805_1_alg».proof.Proof.Gen.KernelIdeal
import proofs.«163899_j66013647339805_1_alg».proof.Proof.Gen.KernelIdeal.Frame
import proofs.«163899_j66013647339805_1_alg».proof.Proof.Gen.ReferenceIdeal
import proofs.«163899_j66013647339805_1_alg».proof.Proof.ReadP
import proofs.«163899_j66013647339805_1_alg».proof.Proof.RunP
import proofs.«163899_j66013647339805_1_alg».proof.Proof.Gen.Pre_finite_inputs
import proofs.«163899_j66013647339805_1_alg».proof.Proof.KernelValue
import proofs.«163899_j66013647339805_1_alg».proof.Proof.RefStages
import proofs.«163899_j66013647339805_1_alg».proof.Proof.Net
import Idealize.ShloMosaic.Adequacy
import Idealize.ShloMosaic.Init

set_option maxRecDepth 16384

noncomputable section

namespace Cert.Proof

open Idealize.ShloMosaic Idealize.ShloMosaic.TcCoe Idealize.SL.Sem

/-- The state after the second layer, as the kernel-side modules name it, is the network function. -/
theorem kernel_net (m : (ℓ : Loc Cert.KernelIdeal.nD Cert.KernelIdeal.τ Cert.KernelIdeal.sig) → Buf (Elt Ideal) ℓ) (c : Dev Cert.KernelIdeal.nD) :
    Cert.Spec.combG (Cert.KernelIdeal.Value.X2 m c) (Cert.KernelIdeal.Value.H2 m c) (m ((c.tc : Thread Cert.KernelIdeal.nD Cert.KernelIdeal.τ).loc Cert.KernelIdeal.main_arg1)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := rfl

/-- From memories that agree on the arguments both programs run to the end, and both result arrays hold the network
    function of the argument arrays. -/
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (kernel_net m c), (h c).2⟩)
      (Cert.KernelIdeal.Value.run m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14⟩ := hagree c
    rw [Cert.ReferenceIdeal.Stages.net_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.ValueP.run (F := Ideal) m ρ),
    trivial,
    algebraic⟩

end Cert.Proof

end
